-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S256x64 : Shape := ⟨2, ![256, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x4 : Shape := ⟨2, ![128, 4]⟩
abbrev S4 : Shape := ⟨1, ![4]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg9 : FVec F S128x4 .f32) (main_arg10 : FVec F S4 .f32) (main_v33 : IVec S_ 1) : IVec S_ 1 :=
  let main_v34 : FVec F S128x4 .f32 := Host.absf main_arg9
  let main_cst_12 : FVec F S_ .f32 := constant S_ .f32 0x7F800000#32
  let main_v35 : FVec F S128x4 .f32 := broadcastInDim S128x4 ![] bcast_S_S128x4 main_cst_12
  let main_v36 : IVec S128x4 1 := cmpf .olt main_v34 main_v35
  let main_c_13 : IVec S_ 1 := constantI S_ 1 1#1
  let main_v37 : IVec S_ 1 := (fun x v => Host.reduce IntOp.andi x v reducesTo_S128x4_S_d0_1 h_S_) main_v36 main_c_13
  let main_v38 : IVec S_ 1 := andi main_v33 main_v37
  let main_v39 : FVec F S4 .f32 := Host.absf main_arg10
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg6 : FVec F S64 .f32) (main_arg7 : FVec F S64x128 .f32) (main_arg8 : FVec F S128 .f32) (main_arg9 : FVec F S128x4 .f32) (main_arg10 : FVec F S4 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x256 .f32) (main_arg1 : IVec S2x800000 32) (main_arg2 : IVec S50000 32) (main_arg3 : FVec F S256x64 .f32) (main_arg4 : FVec F S64 .f32) (main_arg5 : FVec F S64x64 .f32) (main_arg6 : FVec F S64 .f32) (main_arg7 : FVec F S64x128 .f32) (main_arg8 : FVec F S128 .f32) (main_arg9 : FVec F S128x4 .f32) (main_arg10 : FVec F S4 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S256x64 : Shape := ⟨2, ![256, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x4 : Shape := ⟨2, ![128, 4]⟩
abbrev S4 : Shape := ⟨1, ![4]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S10000x256 : Shape := ⟨2, ![10000, 256]⟩
abbrev S10000x64 : Shape := ⟨2, ![10000, 64]⟩
abbrev S850000x64 : Shape := ⟨2, ![850000, 64]⟩
abbrev S1x64 : Shape := ⟨2, ![1, 64]⟩
abbrev S50000x1 : Shape := ⟨2, ![50000, 1]⟩
abbrev S64x1 : Shape := ⟨2, ![64, 1]⟩
abbrev S1x128 : Shape := ⟨2, ![1, 128]⟩
abbrev S1x4 : Shape := ⟨2, ![1, 4]⟩
abbrev S64x4 : Shape := ⟨2, ![64, 4]⟩

abbrev nBuf : Space → Nat
  | .hbm => 108
  | .vmem => 26
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S256x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x4, .f32⟩
  | .hbm, ⟨10, _⟩ => ⟨S4, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x64, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x64, .f32⟩
  | .hbm, ⟨61, _⟩ => ⟨S850000x1, .f32⟩
  | .hbm, ⟨62, _⟩ => ⟨S850000x64, .f32⟩
  | .hbm, ⟨63, _⟩ => ⟨S850000x64, .f32⟩
  | .hbm, ⟨64, _⟩ => ⟨S_, .f32⟩
  | .hbm, ⟨65, _⟩ => ⟨S50000x64, .f32⟩
  | .hbm, ⟨66, _⟩ => ⟨S850000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x64, .f32⟩
  | .hbm, ⟨80, _⟩ => ⟨S850000x1, .f32⟩
  | .hbm, ⟨81, _⟩ => ⟨S850000x64, .f32⟩
  | .hbm, ⟨82, _⟩ => ⟨S850000x64, .f32⟩
  | .hbm, ⟨83, _⟩ => ⟨S_, .f32⟩
  | .hbm, ⟨84, _⟩ => ⟨S50000x64, .f32⟩
  | .hbm, ⟨85, _⟩ => ⟨S850000x1, .i32⟩
  | .hbm, ⟨86, _⟩ => ⟨S50000x64, .f32⟩
  | .hbm, ⟨87, _⟩ => ⟨S1x64, .f32⟩
  | .hbm, ⟨88, _⟩ => ⟨S50000x64, .f32⟩
  | .hbm, ⟨89, _⟩ => ⟨S_, .f32⟩
  | .hbm, ⟨90, _⟩ => ⟨S64x64, .f32⟩
  | .hbm, ⟨91, _⟩ => ⟨S50000x1, .i32⟩
  | .hbm, ⟨92, _⟩ => ⟨S64x64, .f32⟩
  | .hbm, ⟨93, _⟩ => ⟨S_, .f32⟩
  | .hbm, ⟨94, _⟩ => ⟨S50000, .f32⟩
  | .hbm, ⟨95, _⟩ => ⟨S_, .f32⟩
  | .hbm, ⟨96, _⟩ => ⟨S64, .f32⟩
  | .hbm, ⟨97, _⟩ => ⟨S50000x1, .i32⟩
  | .hbm, ⟨98, _⟩ => ⟨S64, .f32⟩
  | .hbm, ⟨99, _⟩ => ⟨S_, .f32⟩
  | .hbm, ⟨100, _⟩ => ⟨S64, .f32⟩
  | .hbm, ⟨101, _⟩ => ⟨S64, .f32⟩
  | .hbm, ⟨102, _⟩ => ⟨S64x1, .f32⟩
  | .hbm, ⟨103, _⟩ => ⟨S64x64, .f32⟩
  | .hbm, ⟨104, _⟩ => ⟨S64x64, .f32⟩
  | .hbm, ⟨105, _⟩ => ⟨S1x128, .f32⟩
  | .hbm, ⟨106, _⟩ => ⟨S1x4, .f32⟩
  | .hbm, ⟨107, _⟩ => ⟨S64x4, .f32⟩
  | .local _ .vmem, ⟨0, _⟩ => ⟨S10000x256, .f32⟩
  | .local _ .vmem, ⟨1, _⟩ => ⟨S10000x256, .f32⟩
  | .local _ .vmem, ⟨2, _⟩ => ⟨S256x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S64x64, .f32⟩
  | .local _ .vmem, ⟨21, _⟩ => ⟨S64x128, .f32⟩
  | .local _ .vmem, ⟨22, _⟩ => ⟨S1x128, .f32⟩
  | .local _ .vmem, ⟨23, _⟩ => ⟨S128x4, .f32⟩
  | .local _ .vmem, ⟨24, _⟩ => ⟨S1x4, .f32⟩
  | .local _ .vmem, ⟨25, _⟩ => ⟨S64x4, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_15 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc4_stg4_0 : Ref sig .tc := ⟨.vmem, 24, rfl⟩
abbrev cc4_stg5_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23
abbrev cc4_sem4_0 : DmaSem sig := 24
abbrev cc4_sem5_0 : DmaSem sig := 25

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x4 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x4 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x4 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S64x64 : S_.BroadcastsInDim S64x64 (![] : Fin 0 → Fin S64x64.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S128_S1x128 : S128.ShapeCasts S1x128
  shapeCasts_S4_S1x4 : S4.ShapeCasts S1x4
  shapeCasts_S64x64_S64x64 : S64x64.ShapeCasts S64x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S128x4_S128x4_0_0 : ∀ a, (![0, 0] : Fin 2 → Nat) a + S128x4.size a ≤ S128x4.size a
  h_S128x4 : 0 < S128x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S64x4 : S1x4.Broadcasts S64x4
  inb_S64x4_S64x4_0_0 : ∀ a, (![0, 0] : Fin 2 → Nat) a + S64x4.size a ≤ S64x4.size a
  h_S64x4 : 0 < S64x4.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x256_S256x64_S10000x64_1_0_0_1_n_n_wf : DotDims.WF S10000x256 S256x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x64_S10000x64_1_0_0_1_n_n_wf : DotDims.WF S10000x64 S64x64 S10000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x128_S64x128_1_0_0_1_n_n_wf : DotDims.WF S64x64 S64x128 S64x128 [1] [0] [0] [1] [] []
  dot_S64x128_S128x4_S64x4_1_0_0_1_n_n_wf : DotDims.WF S64x128 S128x4 S64x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S50000x256.size a
  hwx0_0 : ∀ i : grid0.Coords, EltTy.bits .f32 = 32 ∨ (Rect.block (s := S50000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S50000x64.size a
  hwx3_2 : ∀ i : grid3.Coords, EltTy.bits .f32 = 32 ∨ (Rect.block (s := S50000x64) S10000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x64.size a ≤ S64x64.size a
  hwx4_0 : ∀ i : grid4.Coords, EltTy.bits .f32 = 32 ∨ (Rect.block (s := S64x64) S64x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x4.size a ≤ S128x4.size a
  hwx4_3 : ∀ i : grid4.Coords, EltTy.bits .f32 = 32 ∨ (Rect.block (s := S128x4) S128x4.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x4.size a ≤ S1x4.size a
  hwx4_4 : ∀ i : grid4.Coords, EltTy.bits .f32 = 32 ∨ (Rect.block (s := S1x4) S1x4.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x4.size a ≤ S64x4.size a
  hwx4_5 : ∀ i : grid4.Coords, EltTy.bits .f32 = 32 ∨ (Rect.block (s := S64x4) S64x4.size (cc4_transform_5 i) (hinb4_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x4_S64x4_1_0_0_1_n_n : DotDims S64x128 S128x4 S64x4 where
  lhsContracting := [1]
  rhsContracting := [0]
  lhsNonContracting := [0]
  rhsNonContracting := [1]
  lhsBatch := []
  rhsBatch := []
  wf := dot_S64x128_S128x4_S64x4_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S64x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S128x4.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S1x4.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v76) S64x4.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S256x64 : Shape := ⟨2, ![256, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x4 : Shape := ⟨2, ![128, 4]⟩
abbrev S4 : Shape := ⟨1, ![4]⟩
abbrev S1x800000 : Shape := ⟨2, ![1, 800000]⟩
abbrev S800000 : Shape := ⟨1, ![800000]⟩
abbrev S850000 : Shape := ⟨1, ![850000]⟩
abbrev S50000x64 : Shape := ⟨2, ![50000, 64]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x1 : Shape := ⟨2, ![50000, 1]⟩
abbrev S64x1 : Shape := ⟨2, ![64, 1]⟩
abbrev S1x128 : Shape := ⟨2, ![1, 128]⟩
abbrev S64x4 : Shape := ⟨2, ![64, 4]⟩
abbrev S1x4 : Shape := ⟨2, ![1, 4]⟩

abbrev nBuf : Space → Nat
  | .hbm => 157
  | .vmem => 0
  | .smem => 0
  | _ => 0

abbrev hbmTy0_0 (i : Nat) : BufTy := match i % 128 with
  | 0 => ⟨S50000x256, .f32⟩
  | 1 => ⟨S2x800000, .i32⟩
  | 2 => ⟨S50000, .i32⟩
  | 3 => ⟨S256x64, .f32⟩
  | 4 => ⟨S64, .f32⟩
  | 5 => ⟨S64x64, .f32⟩
  | 6 => ⟨S64, .f32⟩
  | 7 => ⟨S64x128, .f32⟩
  | 8 => ⟨S128, .f32⟩
  | 9 => ⟨S128x4, .f32⟩
  | 10 => ⟨S4, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S50000x64, .f32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x64, .f32⟩
  | 61 => ⟨S850000x1, .f32⟩
  | 62 => ⟨S850000x64, .f32⟩
  | 63 => ⟨S850000x64, .f32⟩
  | 64 => ⟨S_, .f32⟩
  | 65 => ⟨S50000x64, .f32⟩
  | 66 => ⟨S850000x1, .i32⟩
  | 67 => ⟨S50000x64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S50000x64, .f32⟩
  | 75 => ⟨S_, .f32⟩
  | 76 => ⟨S850000, .f32⟩
  | 77 => ⟨S_, .f32⟩
  | 78 => ⟨S50000, .f32⟩
  | 79 => ⟨S850000x1, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S850000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x64, .f32⟩
  | 117 => ⟨S850000x1, .f32⟩
  | 118 => ⟨S850000x64, .f32⟩
  | 119 => ⟨S850000x64, .f32⟩
  | 120 => ⟨S_, .f32⟩
  | 121 => ⟨S50000x64, .f32⟩
  | 122 => ⟨S850000x1, .i32⟩
  | 123 => ⟨S50000x64, .f32⟩
  | 124 => ⟨S1x64, .f32⟩
  | 125 => ⟨S50000x64, .f32⟩
  | 126 => ⟨S50000x64, .f32⟩
  | 127 => ⟨S_, .f32⟩
  | _ => ⟨S50000x256, .f32⟩

abbrev hbmTy0_1 (i : Nat) : BufTy := match i % 128 with
  | 0 => ⟨S50000x64, .f32⟩
  | 1 => ⟨S50000x64, .f32⟩
  | 2 => ⟨S_, .f32⟩
  | 3 => ⟨S64x64, .f32⟩
  | 4 => ⟨S50000x1, .i32⟩
  | 5 => ⟨S64x64, .f32⟩
  | 6 => ⟨S_, .f32⟩
  | 7 => ⟨S50000, .f32⟩
  | 8 => ⟨S_, .f32⟩
  | 9 => ⟨S64, .f32⟩
  | 10 => ⟨S50000x1, .i32⟩
  | 11 => ⟨S64, .f32⟩
  | 12 => ⟨S_, .f32⟩
  | 13 => ⟨S64, .f32⟩
  | 14 => ⟨S64, .f32⟩
  | 15 => ⟨S64x1, .f32⟩
  | 16 => ⟨S64x64, .f32⟩
  | 17 => ⟨S64x64, .f32⟩
  | 18 => ⟨S64x128, .f32⟩
  | 19 => ⟨S1x128, .f32⟩
  | 20 => ⟨S64x128, .f32⟩
  | 21 => ⟨S64x128, .f32⟩
  | 22 => ⟨S_, .f32⟩
  | 23 => ⟨S64x128, .f32⟩
  | 24 => ⟨S64x128, .f32⟩
  | 25 => ⟨S64x4, .f32⟩
  | 26 => ⟨S1x4, .f32⟩
  | 27 => ⟨S64x4, .f32⟩
  | 28 => ⟨S64x4, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v56 : Ref sig .tc := ⟨.hbm, 88, rfl⟩
abbrev main_c_13 : Ref sig .tc := ⟨.hbm, 89, rfl⟩
abbrev main_v57 : Ref sig .tc := ⟨.hbm, 90, rfl⟩
abbrev main_v58 : Ref sig .tc := ⟨.hbm, 91, rfl⟩
abbrev main_c_14 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_15 : Ref sig .tc := ⟨.hbm, 98, rfl⟩
abbrev main_v64 : Ref sig .tc := ⟨.hbm, 99, rfl⟩
abbrev main_v65 : Ref sig .tc := ⟨.hbm, 100, rfl⟩
abbrev main_c_16 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_17 : Ref sig .tc := ⟨.hbm, 108, rfl⟩
abbrev main_v72 : Ref sig .tc := ⟨.hbm, 109, rfl⟩
abbrev main_v73 : Ref sig .tc := ⟨.hbm, 110, rfl⟩
abbrev main_c_18 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_19 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_call3_cst : Ref sig .tc := ⟨.hbm, 127, rfl⟩
abbrev main_call3_v0 : Ref sig .tc := ⟨.hbm, 128, rfl⟩
abbrev main_v88 : Ref sig .tc := ⟨.hbm, 129, rfl⟩
abbrev main_cst_20 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_21 : Ref sig .tc := ⟨.hbm, 134, rfl⟩
abbrev main_v92 : Ref sig .tc := ⟨.hbm, 135, rfl⟩
abbrev main_cst_22 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_23 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_call4_cst : Ref sig .tc := ⟨.hbm, 150, rfl⟩
abbrev main_call4_v0 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  dot_S50000x256_S256x64_S50000x64_1_0_0_1_n_n_wf : DotDims.WF S50000x256 S256x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x128_S64x128_1_0_0_1_n_n_wf : DotDims.WF S64x64 S64x128 S64x128 [1] [0] [0] [1] [] []
  dot_S64x128_S128x4_S64x4_1_0_0_1_n_n_wf : DotDims.WF S64x128 S128x4 S64x4 [1] [0] [0] [1] [] []

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x4_S64x4_1_0_0_1_n_n : DotDims S64x128 S128x4 S64x4 where
  lhsContracting := [1]
  rhsContracting := [0]
  lhsNonContracting := [0]
  rhsNonContracting := [1]
  lhsBatch := []
  rhsBatch := []
  wf := dot_S64x128_S128x4_S64x4_1_0_0_1_n_n_wf

class Facts : Prop extends Facts₀ where

variable [Facts]
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.LibMatProd.lean ====
/- The textbook product of an m x k by a k x n matrix over the extended reals, (A B)(a, b) = Σ_c A(a, c) · B(c, b), and
   the two operations that compute it exactly there: the host's dot_general over a rows-by-columns dimension record,
   and a matmul with that record into a zero accumulator. Also: a row block of the product is the product of the
   row block. -/
import Idealize.ShloMosaic.Lib.ValueIdx
import Idealize.ShloMosaic.PureOps.Ideal.Laws
import proofs.«181904_j19602230739293_1_alg».proof.Proof.LibDotRead

noncomputable section

open scoped BigOperators

namespace Cert.MatProd

open Idealize.ShloMosaic Idealize.ShloMosaic.ValueIdx

/-- The matrix product, entry by entry. -/
def matProd {m k n : Nat} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_ix2 {m k n : Nat} (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- The host's dot_general over a rows-by-columns record is the matrix product: its contraction sum, with no
    accumulator, re-indexed by the contracted coordinate. -/
theorem hostDot_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = matProd A B := by
  funext i
  obtain ⟨a, b, rfl⟩ : ∃ (a : Fin m) (b : Fin n), i = ix2 a b := ⟨i 0, i 1, eq_ix2 i⟩
  refine (Ideal.dotGeneral_apply _ prec _ A B (ix2 a b)).trans ?_
  exact Cert.DotRead.sum_contr_plain w A B a b

/-- A matmul over a rows-by-columns record into the zero accumulator is the matrix product: zero plus the contraction
    sum. -/
theorem matmulZero_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    matmul (⟨[1], [0], [0], [1], [], [], w⟩ : DotDims ⟨2, ![m, k]⟩ ⟨2, ![k, n]⟩ ⟨2, ![m, n]⟩) prec A B
      (constant (F := Ideal) ⟨2, ![m, n]⟩ .f32 0x00000000#32) = matProd A B := by
  funext i
  obtain ⟨a, b, rfl⟩ : ∃ (a : Fin m) (b : Fin n), i = ix2 a b := ⟨i 0, i 1, eq_ix2 i⟩
  refine (Ideal.matmul_constant_zero_apply _ prec A B (ix2 a b)).trans ?_
  exact Cert.DotRead.sum_contr_plain w A B a b

end Cert.MatProd

end
-- ==== Proof.LibRowBlocks.lean ====
/- Two layout facts about matrices handled a block of rows at a time, over generic sizes.

   (1) The product of an [m, k] by a [k, n] matrix accumulated into zero, read at entry (a, b), is the sum over the contracted
       coordinate c of A (a, c) * B (c, b), whatever the operands' float formats (on the extended reals a format is no rounding).
   (2) Two [a, b] matrices laid side by side along the columns into [a, c]: an entry whose column falls in the first b columns
       reads the first matrix there, one whose column is b further reads the second. -/
import Idealize.ShloMosaic.Lib.ValueIdx
import Idealize.ShloMosaic.Lib.Pipeline.Value
import Idealize.ShloMosaic.PureOps.Ideal.Laws
import proofs.«181904_j19602230739293_1_alg».proof.Proof.LibDotRead

noncomputable section

open scoped BigOperators

namespace Cert.RowBlocks

open Idealize.ShloMosaic Idealize.ShloMosaic.ValueIdx

/-- A matmul over a rows-by-columns record into the zero accumulator, read at (a, b): the contraction sum re-indexed by
    the contracted coordinate. -/
theorem matmulZero_apply {m k n : Nat} {φ₁ φ₂ : FTy}
    (w : DotDims.WF ⟨2, ![m, k]⟩ ⟨2, ![k, n]⟩ ⟨2, ![m, n]⟩ [1] [0] [0] [1] [] [])
    (prec : Option ContractPrecision)
    (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
      (constant (F := Ideal) ⟨2, ![m, n]⟩ .f32 0x00000000#32) (ix2 a b) = ∑ c : Fin k, A (ix2 a c) * B (ix2 c b) :=
  (Ideal.matmul_constant_zero_apply _ prec A B (ix2 a b)).trans (Cert.DotRead.sum_contr_plain w A B a b)

variable {α : Type}

/-- Side by side along the columns: a column j of the first matrix. -/
theorem catCols_left {a b c : Nat} (x y : (⟨2, ![a, b]⟩ : Shape).Idx → α)
    (h : Shape.Concatenates [(⟨2, ![a, b]⟩ : Shape), ⟨2, ![a, b]⟩] ⟨2, ![a, c]⟩ 1) (p : Fin a) (q : Fin c) (j : Fin b)
    (hj : j.val = q.val) :
    concatenate ⟨2, ![a, c]⟩ 1 [⟨⟨2, ![a, b]⟩, x⟩, ⟨⟨2, ![a, b]⟩, y⟩] h (ix2 p q) = x (ix2 p j) :=
  concatenate_pair_apply_left (t := ⟨2, ![a, c]⟩) (s₁ := ⟨2, ![a, b]⟩) (s₂ := ⟨2, ![a, b]⟩) (1 : Fin 2) x y h (ix2 p q) rfl (ix2 p j)
    (fun ax => by
      match ax with
      | ⟨0, _⟩ => rfl
      | ⟨1, _⟩ => exact hj)

/-- Side by side along the columns: a column j of the second matrix sits b columns further. -/
theorem catCols_right {a b c : Nat} (x y : (⟨2, ![a, b]⟩ : Shape).Idx → α)
    (h : Shape.Concatenates [(⟨2, ![a, b]⟩ : Shape), ⟨2, ![a, b]⟩] ⟨2, ![a, c]⟩ 1) (p : Fin a) (q : Fin c) (j : Fin b)
    (hj : j.val + b = q.val) :
    concatenate ⟨2, ![a, c]⟩ 1 [⟨⟨2, ![a, b]⟩, x⟩, ⟨⟨2, ![a, b]⟩, y⟩] h (ix2 p q) = y (ix2 p j) :=
  concatenate_pair_apply_right (t := ⟨2, ![a, c]⟩) (s₁ := ⟨2, ![a, b]⟩) (s₂ := ⟨2, ![a, b]⟩) (1 : Fin 2) x y h (ix2 p q) rfl rfl (ix2 p j)
    (fun ax hne => by
      match ax with
      | ⟨0, _⟩ => rfl
      | ⟨1, _⟩ => exact absurd rfl hne)
    (by show j.val + b = q.val; exact hj)

end Cert.RowBlocks

end
-- ==== Proof.LibBiasRow.lean ====
/- A vector of n entries laid along each of the m rows of a matrix, read at an entry: entry (a, j) of the matrix is
   entry j of the vector. Three spellings of the same layout: the vector cast to one row; that row broadcast down
   the rows (a kernel's `vector.shape_cast` then `vector.broadcast`); and the host's two steps, the vector broadcast
   along axis 1 into a one-row matrix, then that matrix broadcast along both axes. This is the bias of a dense layer
   added to every row of a product. -/
import Idealize.ShloMosaic.Lib.ValueIdx
import Idealize.ShloMosaic.Lib.Pipeline.Value
import Idealize.ShloMosaic.Lib.KernelVsHost

noncomputable section

namespace Cert.BiasRow

open Idealize.ShloMosaic Idealize.ShloMosaic.ValueIdx

variable {α : Type}

/-- The vector cast to a one-row matrix reads, at (0, j), the vector at j. -/
theorem oneRow_cast_apply {n : ℕ} (b : (⟨1, ![n]⟩ : Shape).Idx → α)
    (h1 : (⟨1, ![n]⟩ : Shape).ShapeCasts ⟨2, ![1, n]⟩) (j : Fin n) :
    shapeCast ⟨2, ![1, n]⟩ b h1 (ix2 (0 : Fin 1) j) = b (ix1 j) :=
  shapeCast_apply b h1 (ix2 (0 : Fin 1) j) (ix1 j) (by
    rw [Shape.rowMajor_val_two, Shape.rowMajor_val_one]
    show j.val = 0 * n + j.val
    omega)

/-- The kernel's spelling: the one-row cast broadcast down m rows reads, at (a, j), the vector at j. -/
theorem castRows_apply {m n : ℕ} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (a : Fin m) (j : Fin n) :
    broadcastTo ⟨2, ![m, n]⟩ (shapeCast ⟨2, ![1, n]⟩ b h1) hb (ix2 a j) = b (ix1 j) := by
  refine (broadcastTo_apply (shapeCast ⟨2, ![1, n]⟩ b h1) hb (ix2 a j) (ix2 (0 : Fin 1) j) ?_).trans
    (oneRow_cast_apply b h1 j)
  intro ax
  match ax with
  | ⟨0, _⟩ => rfl
  | ⟨1, _⟩ =>
    show j.val = if n = 1 then 0 else j.val
    split
    · have := j.isLt; omega
    · rfl

/-- The host's spelling: the vector broadcast along axis 1 into one row, that row broadcast along both axes into
    m rows, reads, at (a, j), the vector at j. -/
theorem inDimRows_apply {m n : ℕ} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1]) (a : Fin m) (j : Fin n) :
    broadcastInDim ⟨2, ![m, n]⟩ ![0, 1] hd2 (broadcastInDim ⟨2, ![1, n]⟩ ![1] hd1 b) (ix2 a j) = b (ix1 j) := by
  refine (broadcastInDim_oneRow_apply hd2 _ a j).trans ?_
  refine broadcastInDim_apply ![1] hd1 b (ix2 (0 : Fin 1) j) (ix1 j) ?_
  intro ax
  match ax with
  | ⟨0, _⟩ =>
    show j.val = if n = 1 then 0 else j.val
    split
    · have := j.isLt; omega
    · rfl

end Cert.BiasRow

end
-- ==== Proof.LibDenseRelu.lean ====
/- A dense layer with the bias and the rectifier applied BEFORE the product, over generic sizes and the extended reals:
   out (p, q) = Σ_c max (a (p, c) + b (c), 0) · w (c, q), the zero written as the float word it is printed with.

   (1) the rectified input, entry by entry, in two layouts of the bias: a vector of k entries, or the same vector
       held as a one-row matrix;
   (2) a kernel's spelling of it — the input and the one-row bias passed through identity casts, the bias row repeated
       down the rows, the sum compared with a splat zero, both operands narrowed, the product accumulated into zero —
       read at an entry;
   (3) the host's spelling of the rectified input — the bias vector laid out as one row and then down the rows, the
       sum compared with a broadcast scalar zero — read at an entry. -/
import Idealize.ShloMosaic.Lib.ValueIdx
import Idealize.ShloMosaic.Lib.Pipeline.Value
import Idealize.ShloMosaic.PureOps.Ideal.Laws
import proofs.«181904_j19602230739293_1_alg».proof.Proof.LibRowBlocks
import proofs.«181904_j19602230739293_1_alg».proof.Proof.LibBiasRow

noncomputable section

open scoped BigOperators

namespace Cert.DenseRelu

open Idealize.ShloMosaic Idealize.ShloMosaic.ValueIdx

/-- max (a + b, 0) entry by entry, the bias a vector along the columns. -/
def rectified {m k : Nat} (a : (⟨2, ![m, k]⟩ : Shape).Idx → EReal) (b : (⟨1, ![k]⟩ : Shape).Idx → EReal) :
    (⟨2, ![m, k]⟩ : Shape).Idx → EReal :=
  fun i => max (a i + b (ix1 (i 1))) (Ideal.ofBits .f32 0x00000000#32)

/-- The same with the bias held as a one-row matrix. -/
def rectifiedRow {m k : Nat} (a : (⟨2, ![m, k]⟩ : Shape).Idx → EReal) (b : (⟨2, ![1, k]⟩ : Shape).Idx → EReal) :
    (⟨2, ![m, k]⟩ : Shape).Idx → EReal :=
  fun i => max (a i + b (ix2 (0 : Fin 1) (i 1))) (Ideal.ofBits .f32 0x00000000#32)

/-- A bias vector cast to one row gives the same rectified input. -/
theorem rectifiedRow_cast {m k : Nat} (a : (⟨2, ![m, k]⟩ : Shape).Idx → EReal) (b : (⟨1, ![k]⟩ : Shape).Idx → EReal)
    (h1 : (⟨1, ![k]⟩ : Shape).ShapeCasts ⟨2, ![1, k]⟩) :
    rectifiedRow a (shapeCast ⟨2, ![1, k]⟩ b h1) = rectified a b := by
  funext i
  show max (a i + shapeCast ⟨2, ![1, k]⟩ b h1 (ix2 (0 : Fin 1) (i 1))) _ = max (a i + b (ix1 (i 1))) _
  rw [Cert.BiasRow.oneRow_cast_apply b h1 (i 1)]

/-- One row repeated down m rows reads, at (p, j), the row at j. -/
theorem rowsOf_apply {α : Type} {m k : Nat} (v : (⟨2, ![1, k]⟩ : Shape).Idx → α)
    (hb : (⟨2, ![1, k]⟩ : Shape).Broadcasts ⟨2, ![m, k]⟩) (p : Fin m) (j : Fin k) :
    broadcastTo ⟨2, ![m, k]⟩ v hb (ix2 p j) = v (ix2 (0 : Fin 1) j) := by
  refine broadcastTo_apply v hb (ix2 p j) (ix2 (0 : Fin 1) j) ?_
  intro ax
  match ax with
  | ⟨0, _⟩ => rfl
  | ⟨1, _⟩ =>
    show j.val = if k = 1 then 0 else j.val
    split
    · have := j.isLt; omega
    · rfl

/-- The kernel's spelling, read at (p, q): the contraction of the rectified input's row p with column q of w. -/
theorem kernel_entry {m k n : Nat}
    (wf : DotDims.WF ⟨2, ![m, k]⟩ ⟨2, ![k, n]⟩ ⟨2, ![m, n]⟩ [1] [0] [0] [1] [] [])
    (hx : (⟨2, ![m, k]⟩ : Shape).ShapeCasts ⟨2, ![m, k]⟩) (hb1 : (⟨2, ![1, k]⟩ : Shape).ShapeCasts ⟨2, ![1, k]⟩)
    (hb : (⟨2, ![1, k]⟩ : Shape).Broadcasts ⟨2, ![m, k]⟩) (hbits : FTy.bits .bf16 < FTy.bits .f32)
    (x : FVec Ideal ⟨2, ![m, k]⟩ .f32) (b : FVec Ideal ⟨2, ![1, k]⟩ .f32) (w : FVec Ideal ⟨2, ![k, n]⟩ .f32)
    (p : Fin m) (q : Fin n) :
    matmul (⟨[1], [0], [0], [1], [], [], wf⟩ : DotDims ⟨2, ![m, k]⟩ ⟨2, ![k, n]⟩ ⟨2, ![m, n]⟩) none
        (truncf .bf16 (maximumf (addf (shapeCast ⟨2, ![m, k]⟩ x hx) (broadcastTo ⟨2, ![m, k]⟩ (shapeCast ⟨2, ![1, k]⟩ b hb1) hb))
          (broadcast ⟨2, ![m, k]⟩ (Scalar.ofBits (F := Ideal) .f32 0x00000000#32))) hbits)
        (truncf .bf16 w hbits) (constant (F := Ideal) ⟨2, ![m, n]⟩ .f32 0x00000000#32) (ix2 p q)
      = ∑ cc : Fin k, rectifiedRow x b (ix2 p cc) * w (ix2 cc q) := by
  refine (Cert.RowBlocks.matmulZero_apply wf none _ _ p q).trans ?_
  refine Finset.sum_congr rfl fun cc _ => ?_
  show max (shapeCast ⟨2, ![m, k]⟩ x hx (ix2 p cc) + broadcastTo ⟨2, ![m, k]⟩ (shapeCast ⟨2, ![1, k]⟩ b hb1) hb (ix2 p cc))
      (Ideal.ofBits .f32 0x00000000#32) * w (ix2 cc q) = max (x (ix2 p cc) + b (ix2 (0 : Fin 1) cc)) (Ideal.ofBits .f32 0x00000000#32) * w (ix2 cc q)
  rw [shapeCast_self, rowsOf_apply, shapeCast_self]

/-- The host's spelling of the rectified input, read at an entry. -/
theorem host_rectified {m k : Nat}
    (hd1 : (⟨1, ![k]⟩ : Shape).BroadcastsInDim ⟨2, ![1, k]⟩ ![1])
    (hd2 : (⟨2, ![1, k]⟩ : Shape).BroadcastsInDim ⟨2, ![m, k]⟩ ![0, 1])
    (hz : (⟨0, ![]⟩ : Shape).BroadcastsInDim ⟨2, ![m, k]⟩ (![] : Fin 0 → Fin 2))
    (a : FVec Ideal ⟨2, ![m, k]⟩ .f32) (b : FVec Ideal ⟨1, ![k]⟩ .f32) :
    maximumf (addf a (broadcastInDim ⟨2, ![m, k]⟩ ![0, 1] hd2 (broadcastInDim ⟨2, ![1, k]⟩ ![1] hd1 b)))
        (broadcastInDim ⟨2, ![m, k]⟩ ![] hz (constant (F := Ideal) ⟨0, ![]⟩ .f32 0x00000000#32))
      = rectified a b := by
  funext i
  obtain ⟨p, cc, rfl⟩ : ∃ (p : Fin m) (cc : Fin k), i = ix2 p cc := ⟨i 0, i 1, eq_ix2 i⟩
  show max (a (ix2 p cc) + broadcastInDim ⟨2, ![m, k]⟩ ![0, 1] hd2 (broadcastInDim ⟨2, ![1, k]⟩ ![1] hd1 b) (ix2 p cc))
      (broadcastInDim ⟨2, ![m, k]⟩ ![] hz (constant (F := Ideal) ⟨0, ![]⟩ .f32 0x00000000#32) (ix2 p cc))
    = max (a (ix2 p cc) + b (ix1 cc)) (Ideal.ofBits .f32 0x00000000#32)
  rw [Cert.BiasRow.inDimRows_apply b hd1 hd2 p cc,
    broadcastInDim_apply (![] : Fin 0 → Fin 2) hz (constant (F := Ideal) ⟨0, ![]⟩ .f32 0x00000000#32) (ix2 p cc) (fun a => a.elim0) (fun a => a.elim0)]
  rfl

end Cert.DenseRelu

end
-- ==== Proof.Stages.lean ====
/- The graph-convolution network both programs compute, written once.

   The graph has 50000 nodes and 800000 directed edges given as a 2 x 800000 table of endpoints; every node also gets a
   loop to itself, so there are 850000 edges in all.  For an edge e from s(e) to d(e):

     deg(v)   = the number of edges that END at v,
     dinv(v)  = deg(v)^(-1/2) where deg(v) > 0, and 0 elsewhere,
     norm(e)  = dinv(s(e)) * dinv(d(e)),
     (agg P)(v, j) = the sum over the edges e ending at v of P(s(e), j) * norm(e).

   One layer sends node features X to  max(agg(X W) + b, 0)  (the bias b added to every row).  After two layers the rows
   are averaged per graph: row g of the pooled matrix is the sum of the rows of the nodes of graph g divided by
   max(their number, 1).  The head is  max(pooled F1 + c1, 0) F2 + c2.

   The edge bookkeeping (endpoints, wrap-around of negative indices, degree, norm, gather and scatter-add, the pooling)
   is the same sequence of host operations in both programs; it is named here as functions and never opened.  What
   differs between the programs, and is proved elsewhere, is only how a matrix product, a bias row and max(., 0) are
   spelled, and that one program works a block of rows at a time. -/
import proofs.«181904_j19602230739293_1_alg».proof.ReferenceIdeal
import proofs.«181904_j19602230739293_1_alg».proof.Proof.Gen.ReferenceIdeal
import proofs.«181904_j19602230739293_1_alg».proof.Proof.LibMatProd
import proofs.«181904_j19602230739293_1_alg».proof.Proof.LibDenseRelu

noncomputable section

open scoped BigOperators

namespace Cert.Gcn

open Idealize.ShloMosaic Idealize.ShloMosaic.ValueIdx Cert.ReferenceIdeal Cert.ReferenceIdeal.Gen Cert.MatProd Cert.DenseRelu

variable {F : FTy → Type} [FloatOps F]

/-- The edges' source nodes: row 0 of the endpoint table, then one loop per node. -/
def srcOf (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The edges' target nodes: row 1 of the endpoint table, then one loop per node. -/
def dstOf (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A node index read the way an array subscript is: a negative index counts from the end (50000 is added). -/
def wrapIdx (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- deg: one added at its target for every edge. -/
def degOf (dst : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32))

/-- Where deg is positive. -/
def degPos (dst : (⟨S850000, .i32⟩ : BufTy).Contents (Elt F)) : (⟨S50000, .i1⟩ : BufTy).Contents (Elt F) :=
  cmpf .ogt (degOf dst) (broadcastInDim S50000 ![] bcast_S_S50000 (constant S_ .f32 0x00000000#32))

/-- dinv from the mask, the inverse square roots and the scalar that fills the rest. -/
def dinvFrom (pos : (⟨S50000, .i1⟩ : BufTy).Contents (Elt F)) (rs : (⟨S50000, .f32⟩ : BufTy).Contents (Elt F))
    (z : (⟨S_, .f32⟩ : BufTy).Contents (Elt F)) : (⟨S50000, .f32⟩ : BufTy).Contents (Elt F) :=
  select pos rs (broadcastInDim S50000 ![] bcast_S_S50000 (id z))

/-- dinv: deg^(-1/2) where deg is positive, zero elsewhere. -/
def dinvOf (dst : (⟨S850000, .i32⟩ : BufTy).Contents (Elt F)) : (⟨S50000, .f32⟩ : BufTy).Contents (Elt F) :=
  dinvFrom (degPos dst) (Host.rsqrt (degOf dst)) (constant S_ .f32 0x00000000#32)

/-- norm from the endpoints and dinv: dinv at the source times dinv at the target. -/
def normFrom (src dst : (⟨S850000, .i32⟩ : BufTy).Contents (Elt F)) (dinv : (⟨S50000, .f32⟩ : BufTy).Contents (Elt F)) :
    (⟨S850000, .f32⟩ : BufTy).Contents (Elt F) :=
  mulf (Host.gather gather_S50000_S850000x1_S850000_n_0_n_n_0_1_1 dinv (broadcastInDim S850000x1 ![0] bcast_S850000_S850000x1_0 (wrapIdx src)))
    (Host.gather gather_S50000_S850000x1_S850000_n_0_n_n_0_1_1 dinv (broadcastInDim S850000x1 ![0] bcast_S850000_S850000x1_0 (wrapIdx dst)))

/-- norm of the endpoint table. -/
def edgeNorm (ei : (⟨S2x800000, .i32⟩ : BufTy).Contents (Elt F)) : (⟨S850000, .f32⟩ : BufTy).Contents (Elt F) :=
  normFrom (srcOf ei) (dstOf ei) (dinvOf (dstOf ei))

/-- agg from the endpoints and norm: the source rows gathered, scaled by norm, added up at the targets. -/
def aggFrom (src dst : (⟨S850000, .i32⟩ : BufTy).Contents (Elt F)) (nrm : (⟨S850000, .f32⟩ : BufTy).Contents (Elt F))
    (P : (⟨S50000x64, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 dst)
    (mulf (Host.gather gather_S50000x64_S850000x1_S850000x64_1_0_n_n_0_1_164 P (broadcastInDim S850000x1 ![0] bcast_S850000_S850000x1_0 (wrapIdx src)))
      (broadcastInDim S850000x64 ![0, 1] bcast_S850000x1_S850000x64_0_1 (broadcastInDim S850000x1 ![0] bcast_S850000_S850000x1_0 nrm)))

/-- agg of the endpoint table. -/
def aggregate (ei : (⟨S2x800000, .i32⟩ : BufTy).Contents (Elt F)) (P : (⟨S50000x64, .f32⟩ : BufTy).Contents (Elt F)) :
    (⟨S50000x64, .f32⟩ : BufTy).Contents (Elt F) :=
  aggFrom (srcOf ei) (dstOf ei) (edgeNorm ei) P

/-- The per-graph mean of the node rows: sums by graph id over max(counts, 1). -/
def meanPool (batch : (⟨S50000, .i32⟩ : BufTy).Contents (Elt F)) (H : (⟨S50000x64, .f32⟩ : BufTy).Contents (Elt F)) :
    (⟨S64x64, .f32⟩ : BufTy).Contents (Elt F) :=
  Host.divf (Host.scatterAdd scatter_S64x64_S50000x1_S50000x64_1_0_0_1 (broadcastInDim S64x64 ![] bcast_S_S64x64 (constant S_ .f32 0x00000000#32)) (broadcastInDim S50000x1 ![0] bcast_S50000_S50000x1_0 batch) H)
    (broadcastInDim S64x64 ![0, 1] bcast_S64x1_S64x64_0_1 (broadcastInDim S64x1 ![0] bcast_S64_S64x1_0
      (maximumf (Host.scatterAdd scatter_S64_S50000x1_S50000_n_0_0_1 (broadcastInDim S64 ![] bcast_S_S64 (constant S_ .f32 0x00000000#32)) (broadcastInDim S50000x1 ![0] bcast_S50000_S50000x1_0 batch) (broadcastInDim S50000 ![] bcast_S_S50000 (constant S_ .f32 0x3F800000#32)))
        (broadcastInDim S64 ![] bcast_S_S64 (constant S_ .f32 0x3F800000#32)))))

/-! ## The network on the extended reals -/

/-- One layer: max(agg(X W) + b, 0). -/
def layer {k : Nat} (ei : (⟨S2x800000, .i32⟩ : BufTy).Contents (Elt Ideal))
    (X : (⟨2, ![50000, k]⟩ : Shape).Idx → EReal) (W : (⟨2, ![k, 64]⟩ : Shape).Idx → EReal)
    (b : (⟨1, ![64]⟩ : Shape).Idx → EReal) : (⟨2, ![50000, 64]⟩ : Shape).Idx → EReal :=
  rectified (aggregate (F := Ideal) ei (matProd X W)) b

/-- The head: max(p F1 + c1, 0) F2 + c2, entry by entry. -/
def headOut (p : (⟨2, ![64, 64]⟩ : Shape).Idx → EReal) (w1 : (⟨2, ![64, 128]⟩ : Shape).Idx → EReal)
    (c1 : (⟨1, ![128]⟩ : Shape).Idx → EReal) (w2 : (⟨2, ![128, 4]⟩ : Shape).Idx → EReal)
    (c2 : (⟨1, ![4]⟩ : Shape).Idx → EReal) : (⟨2, ![64, 4]⟩ : Shape).Idx → EReal :=
  fun i => matProd (rectified (matProd p w1) c1) w2 i + c2 (ix1 (i 1))

/-- The whole network. -/
def network (x : (⟨2, ![50000, 256]⟩ : Shape).Idx → EReal) (ei : (⟨S2x800000, .i32⟩ : BufTy).Contents (Elt Ideal))
    (batch : (⟨S50000, .i32⟩ : BufTy).Contents (Elt Ideal))
    (W1 : (⟨2, ![256, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (f1 : (⟨2, ![64, 128]⟩ : Shape).Idx → EReal) (c1 : (⟨1, ![128]⟩ : Shape).Idx → EReal)
    (f2 : (⟨2, ![128, 4]⟩ : Shape).Idx → EReal) (c2 : (⟨1, ![4]⟩ : Shape).Idx → EReal) :
    (⟨2, ![64, 4]⟩ : Shape).Idx → EReal :=
  headOut (meanPool (F := Ideal) batch (layer ei (layer ei x W1 b1) W2 b2)) f1 c1 f2 c2

end Cert.Gcn

end
-- ==== Proof.Stretches.lean ====
/- The host stretches of the kernel program between its regions, each read from an arbitrary state W of the buffers:
   which buffers a stretch writes (every other buffer passes through it), and what it leaves in the buffers the next
   region or stretch reads, as the network's named functions of what it found.

   Before the first region: the edges' sources and targets (with the loops), the degree's positivity mask and inverse
   square root, dinv, and the edge norm.  Between the regions: the aggregation of a projected feature matrix and the
   bias vector laid out as one row.  Before the head: the per-graph mean, and the head's two bias rows. -/
import proofs.«181904_j19602230739293_1_alg».proof.Proof.Gen.KernelIdeal.Launch
import proofs.«181904_j19602230739293_1_alg».proof.Proof.Stages
import Idealize.ShloMosaic.Lib.StableHlo.Run

noncomputable section

open Idealize.ShloMosaic Idealize.ShloMosaic.TcCoe Idealize.SL.Sem Idealize.ShloMosaic.StableHlo

namespace Cert.KernelIdeal.Stretch

open Cert.KernelIdeal Cert.KernelIdeal.Gen Cert.Gcn

/-- The references the first stretch (endpoints, degree) writes. -/
abbrev writtenA : List (Ref sig .tc) := [main_v0, main_v1, main_v2, main_v3, main_v4, main_v5, main_v6, main_cst, main_v7, main_cst_0, main_v8, main_v9, main_v10, main_cst_1, main_v11, main_v12, main_v13, main_cst_2]

theorem writesA_sub : (hostOps0 (F := Ideal)).Forall fun op => op.writes ⊆ ((writtenA.map (Proc.devRef (τ := τ) .tc)).toFinset) := by
  simp only [hostOps0, List.Forall, StableHlo.nullary_writes, StableHlo.unary_writes, StableHlo.binary_writes, StableHlo.ternary_writes, StableHlo.quaternary_writes, StableHlo.reshape_writes, StableHlo.binaryIndexed_writes]
  repeat' apply And.intro
  all_goals (rw [Finset.singleton_subset_iff, List.mem_toFinset]; exact List.mem_map.mpr ⟨_, by decide, rfl⟩)

/-- Any buffer the first stretch (endpoints, degree) does not write passes through it. -/
theorem keptA (W : Valuation τ sig (Elt Ideal)) {r : Ref sig .tc} (hr : r ∉ writtenA) :
    StableHlo.after hostOps0 W (Proc.devRef .tc r) = W (Proc.devRef .tc r) :=
  StableHlo.after_of_writes_sub hostOps0 W writesA_sub hr

/-- The references the second stretch (dinv) writes. -/
abbrev writtenB : List (Ref sig .tc) := [main_call0_v0, main_call0_v1, main_v14]

theorem writesB_sub : (hostOps0_1 (F := Ideal)).Forall fun op => op.writes ⊆ ((writtenB.map (Proc.devRef (τ := τ) .tc)).toFinset) := by
  simp only [hostOps0_1, List.Forall, StableHlo.nullary_writes, StableHlo.unary_writes, StableHlo.binary_writes, StableHlo.ternary_writes, StableHlo.quaternary_writes, StableHlo.reshape_writes, StableHlo.binaryIndexed_writes]
  repeat' apply And.intro
  all_goals (rw [Finset.singleton_subset_iff, List.mem_toFinset]; exact List.mem_map.mpr ⟨_, by decide, rfl⟩)

/-- Any buffer the second stretch (dinv) does not write passes through it. -/
theorem keptB (W : Valuation τ sig (Elt Ideal)) {r : Ref sig .tc} (hr : r ∉ writtenB) :
    StableHlo.after hostOps0_1 W (Proc.devRef .tc r) = W (Proc.devRef .tc r) :=
  StableHlo.after_of_writes_sub hostOps0_1 W writesB_sub hr

/-- The references the third stretch (edge norm) writes. -/
abbrev writtenC : List (Ref sig .tc) := [main_c, main_v15, main_v16, main_c_3, main_v17, main_v18, main_v19, main_v20, main_v21, main_c_4, main_v22, main_v23, main_c_5, main_v24, main_v25, main_v26, main_v27, main_v28, main_v29]

theorem writesC_sub : (hostOps0_2 (F := Ideal)).Forall fun op => op.writes ⊆ ((writtenC.map (Proc.devRef (τ := τ) .tc)).toFinset) := by
  simp only [hostOps0_2, List.Forall, StableHlo.nullary_writes, StableHlo.unary_writes, StableHlo.binary_writes, StableHlo.ternary_writes, StableHlo.quaternary_writes, StableHlo.reshape_writes, StableHlo.binaryIndexed_writes]
  repeat' apply And.intro
  all_goals (rw [Finset.singleton_subset_iff, List.mem_toFinset]; exact List.mem_map.mpr ⟨_, by decide, rfl⟩)

/-- Any buffer the third stretch (edge norm) does not write passes through it. -/
theorem keptC (W : Valuation τ sig (Elt Ideal)) {r : Ref sig .tc} (hr : r ∉ writtenC) :
    StableHlo.after hostOps0_2 W (Proc.devRef .tc r) = W (Proc.devRef .tc r) :=
  StableHlo.after_of_writes_sub hostOps0_2 W writesC_sub hr

/-- The references the stretch after region 0 writes. -/
abbrev writtenD : List (Ref sig .tc) := [main_c_6, main_v31, main_v32, main_c_7, main_v33, main_v34, main_v35, main_v36, main_v37, main_v38, main_v39, main_v40, main_cst_8, main_v41, main_v42, main_v43, main_v44]

theorem writesD_sub : (hostOps1 (F := Ideal)).Forall fun op => op.writes ⊆ ((writtenD.map (Proc.devRef (τ := τ) .tc)).toFinset) := by
  simp only [hostOps1, List.Forall, StableHlo.nullary_writes, StableHlo.unary_writes, StableHlo.binary_writes, StableHlo.ternary_writes, StableHlo.quaternary_writes, StableHlo.reshape_writes, StableHlo.binaryIndexed_writes]
  repeat' apply And.intro
  all_goals (rw [Finset.singleton_subset_iff, List.mem_toFinset]; exact List.mem_map.mpr ⟨_, by decide, rfl⟩)

/-- Any buffer the stretch after region 0 does not write passes through it. -/
theorem keptD (W : Valuation τ sig (Elt Ideal)) {r : Ref sig .tc} (hr : r ∉ writtenD) :
    StableHlo.after hostOps1 W (Proc.devRef .tc r) = W (Proc.devRef .tc r) :=
  StableHlo.after_of_writes_sub hostOps1 W writesD_sub hr

/-- The references the stretch after region 2 writes. -/
abbrev writtenE : List (Ref sig .tc) := [main_c_9, main_v47, main_v48, main_c_10, main_v49, main_v50, main_v51, main_v52, main_v53, main_v54, main_v55, main_v56, main_cst_11, main_v57, main_v58, main_v59, main_v60]

theorem writesE_sub : (hostOps3 (F := Ideal)).Forall fun op => op.writes ⊆ ((writtenE.map (Proc.devRef (τ := τ) .tc)).toFinset) := by
  simp only [hostOps3, List.Forall, StableHlo.nullary_writes, StableHlo.unary_writes, StableHlo.binary_writes, StableHlo.ternary_writes, StableHlo.quaternary_writes, StableHlo.reshape_writes, StableHlo.binaryIndexed_writes]
  repeat' apply And.intro
  all_goals (rw [Finset.singleton_subset_iff, List.mem_toFinset]; exact List.mem_map.mpr ⟨_, by decide, rfl⟩)

/-- Any buffer the stretch after region 2 does not write passes through it. -/
theorem keptE (W : Valuation τ sig (Elt Ideal)) {r : Ref sig .tc} (hr : r ∉ writtenE) :
    StableHlo.after hostOps3 W (Proc.devRef .tc r) = W (Proc.devRef .tc r) :=
  StableHlo.after_of_writes_sub hostOps3 W writesE_sub hr

/-- The references the stretch after region 3 writes. -/
abbrev writtenG : List (Ref sig .tc) := [main_cst_12, main_v62, main_v63, main_v64, main_cst_13, main_v65, main_cst_14, main_v66, main_v67, main_v68, main_cst_15, main_v69, main_v70, main_v71, main_v72, main_v73, main_v74, main_v75]

theorem writesG_sub : (hostOps4 (F := Ideal)).Forall fun op => op.writes ⊆ ((writtenG.map (Proc.devRef (τ := τ) .tc)).toFinset) := by
  simp only [hostOps4, List.Forall, StableHlo.nullary_writes, StableHlo.unary_writes, StableHlo.binary_writes, StableHlo.ternary_writes, StableHlo.quaternary_writes, StableHlo.reshape_writes, StableHlo.binaryIndexed_writes]
  repeat' apply And.intro
  all_goals (rw [Finset.singleton_subset_iff, List.mem_toFinset]; exact List.mem_map.mpr ⟨_, by decide, rfl⟩)

/-- Any buffer the stretch after region 3 does not write passes through it. -/
theorem keptG (W : Valuation τ sig (Elt Ideal)) {r : Ref sig .tc} (hr : r ∉ writtenG) :
    StableHlo.after hostOps4 W (Proc.devRef .tc r) = W (Proc.devRef .tc r) :=
  StableHlo.after_of_writes_sub hostOps4 W writesG_sub hr

variable (W : Valuation τ sig (Elt Ideal))

/-! ## What each stretch leaves -/

theorem srcA : StableHlo.after hostOps0 W (Proc.devRef .tc main_v3) = srcOf (F := Ideal) (W (Proc.devRef .tc main_arg1)) := by
  dsimp only [hostOps0]; after_results_simp <;> rfl
theorem dstA : StableHlo.after hostOps0 W (Proc.devRef .tc main_v6) = dstOf (F := Ideal) (W (Proc.devRef .tc main_arg1)) := by
  dsimp only [hostOps0]; after_results_simp <;> rfl
theorem posA : StableHlo.after hostOps0 W (Proc.devRef .tc main_v12) = degPos (F := Ideal) (dstOf (F := Ideal) (W (Proc.devRef .tc main_arg1))) := by
  dsimp only [hostOps0]; after_results_simp <;> rfl
theorem rsqA : StableHlo.after hostOps0 W (Proc.devRef .tc main_v13)
    = Host.rsqrt (F := Ideal) (φ := .f32) (degOf (F := Ideal) (dstOf (F := Ideal) (W (Proc.devRef .tc main_arg1)))) := by
  dsimp only [hostOps0]; after_results_simp <;> rfl
theorem zeroA : StableHlo.after hostOps0 W (Proc.devRef .tc main_cst_2) = constant (F := Ideal) S_ .f32 0x00000000#32 := by
  dsimp only [hostOps0]; after_results_simp <;> rfl

theorem dinvB : StableHlo.after hostOps0_1 W (Proc.devRef .tc main_v14)
    = dinvFrom (F := Ideal) (W (Proc.devRef .tc main_v12)) (W (Proc.devRef .tc main_v13)) (W (Proc.devRef .tc main_cst_2)) := by
  dsimp only [hostOps0_1]; after_results_simp <;> rfl

set_option maxHeartbeats 4000000 in
theorem normC : StableHlo.after hostOps0_2 W (Proc.devRef .tc main_v29)
    = normFrom (F := Ideal) (W (Proc.devRef .tc main_v3)) (W (Proc.devRef .tc main_v6)) (W (Proc.devRef .tc main_v14)) := by
  dsimp only [hostOps0_2]; after_results_simp <;> rfl

set_option maxHeartbeats 4000000 in
theorem aggD : StableHlo.after hostOps1 W (Proc.devRef .tc main_v43)
    = aggFrom (F := Ideal) (W (Proc.devRef .tc main_v3)) (W (Proc.devRef .tc main_v6)) (W (Proc.devRef .tc main_v29)) (W (Proc.devRef .tc main_v30)) := by
  dsimp only [hostOps1]; after_results_simp <;> rfl
theorem rowD : StableHlo.after hostOps1 W (Proc.devRef .tc main_v44)
    = shapeCast S1x64 (W (Proc.devRef .tc main_arg4) : (⟨S64, .f32⟩ : BufTy).Contents (Elt Ideal)) shapeCasts_S64_S1x64 := by
  dsimp only [hostOps1]; after_results_simp <;> rfl

set_option maxHeartbeats 4000000 in
theorem aggE : StableHlo.after hostOps3 W (Proc.devRef .tc main_v59)
    = aggFrom (F := Ideal) (W (Proc.devRef .tc main_v3)) (W (Proc.devRef .tc main_v6)) (W (Proc.devRef .tc main_v29)) (W (Proc.devRef .tc main_v46)) := by
  dsimp only [hostOps3]; after_results_simp <;> rfl
theorem rowE : StableHlo.after hostOps3 W (Proc.devRef .tc main_v60)
    = shapeCast S1x64 (W (Proc.devRef .tc main_arg6) : (⟨S64, .f32⟩ : BufTy).Contents (Elt Ideal)) shapeCasts_S64_S1x64 := by
  dsimp only [hostOps3]; after_results_simp <;> rfl

set_option maxHeartbeats 4000000 in
theorem poolG : StableHlo.after hostOps4 W (Proc.devRef .tc main_v73)
    = meanPool (F := Ideal) (W (Proc.devRef .tc main_arg2)) (W (Proc.devRef .tc main_v61)) := by
  dsimp only [hostOps4]; after_results_simp <;> rfl
theorem row1G : StableHlo.after hostOps4 W (Proc.devRef .tc main_v74)
    = shapeCast S1x128 (W (Proc.devRef .tc main_arg8) : (⟨S128, .f32⟩ : BufTy).Contents (Elt Ideal)) shapeCasts_S128_S1x128 := by
  dsimp only [hostOps4]; after_results_simp <;> rfl
theorem row2G : StableHlo.after hostOps4 W (Proc.devRef .tc main_v75)
    = shapeCast S1x4 (W (Proc.devRef .tc main_arg10) : (⟨S4, .f32⟩ : BufTy).Contents (Elt Ideal)) shapeCasts_S4_S1x4 := by
  dsimp only [hostOps4]; after_results_simp <;> rfl

end Cert.KernelIdeal.Stretch

end
-- ==== Proof.RegionMat0.lean ====
/- Region 0 of the kernel program (a matrix product on the matrix unit, five blocks of 10000 rows): what its result
   array holds when the region ends, as one function of the two arrays it reads.

   At grid point t the body loads rows 10000 t ... 10000 t + 9999 of A (a [50000, 256] array) and the whole of W (a [256, 64] array),
   narrows both (no rounding on the extended reals) and multiplies them into a zero accumulator, so it stores, for each
   of those rows r and each column j, the sum over c of A(r, c) * W(c, j).  Every point writes its block back, the five
   blocks are disjoint and fill the array, so the result array ends at the product A W entry by entry. -/
import proofs.«181904_j19602230739293_1_alg».proof.Proof.Gen.KernelIdeal.Frame
import proofs.«181904_j19602230739293_1_alg».proof.Proof.LibMatProd
import proofs.«181904_j19602230739293_1_alg».proof.Proof.LibRowBlocks
import Idealize.ShloMosaic.Lib.Pipeline.Value
import Idealize.ShloMosaic.Lib.ValueIdx

noncomputable section

open scoped BigOperators

open Idealize.ShloMosaic Idealize.ShloMosaic.TcCoe Idealize.SL.Sem Idealize.ShloMosaic.ValueIdx
open Idealize.ShloMosaic.Pipeline (Dat)

namespace Cert.KernelIdeal.Mat0

open Cert.KernelIdeal Cert.KernelIdeal.Gen Cert.MatProd

variable (V : (c : Dev nD) → (b : Ref sig .tc) → Buf (Elt Ideal) ((c : Thread nD τ).loc b))

/-- The body's loads and its store start at the corner of their buffers. -/
theorem atCorner : (![0, 0] : Fin 2 → Nat) = fun _ => 0 := funext fun a => by fin_cases a <;> rfl

/-- The stored value at an entry of the block: row p of the loaded block against column q of the loaded weights. -/
theorem stored_entry (x0 : Vec Ideal S10000x256 .f32) (x1 : Vec Ideal S256x64 .f32) (p : Fin 10000) (q : Fin 64) :
    k0_pay1 (F := Ideal) x0 x1 (ix2 p q) = ∑ cc : Fin 256, x0 (ix2 p cc) * x1 (ix2 cc q) := by
  unfold k0_pay1
  refine (Cert.RowBlocks.matmulZero_apply (m := 10000) (k := 256) (n := 64) dot_S10000x256_S256x64_S10000x64_1_0_0_1_n_n.wf none
    _ _ p q).trans ?_
  refine Finset.sum_congr rfl fun cc _ => ?_
  first | (rw [shapeCast_self]; rfl) | rfl

/-- If the loaded block's row p is A's row of i and the loaded weights are W, the stored entry is (A W) at i. -/
theorem stored_entry_of (A : Vec Ideal S50000x256 .f32) (W : Vec Ideal S256x64 .f32)
    (x0 : Vec Ideal S10000x256 .f32) (x1 : Vec Ideal S256x64 .f32) (p : Fin 10000) (q : Fin 64) (i : S50000x64.Idx)
    (hA : ∀ cc : Fin 256, x0 (ix2 p cc) = A (ix2 (i 0) cc)) (hW : ∀ cc : Fin 256, x1 (ix2 cc q) = W (ix2 cc (i 1))) :
    k0_pay1 (F := Ideal) x0 x1 (ix2 p q) = matProd (m := 50000) (k := 256) (n := 64) A W i := by
  rw [stored_entry]
  exact Finset.sum_congr rfl fun cc _ => by rw [hA cc, hW cc]

/-- The index maps over the grid: A's and the output's block at point t is row block t; W's block is the only one. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product A W. -/
theorem writtenBack (c : Dev nD) (t : Fin cfg0.N) :
    (dat0 V c).flushed 2 t = ((cfg0.win 2).blk t).view.read (Elt Ideal)
      (matProd (m := 50000) (k := 256) (n := 64) (V c main_arg0) (V c main_arg3)) := by
  show (cfg0.win 2).cut (grid0.coords t) ((dat0 V c).after 2 t) = _
  rw [after0_2]
  unfold out0_2
  rw [View.canon_unit_zero atCorner]
  simp only [View.ld_unit_zero (S := S10000x256) atCorner, View.ld_unit_zero (S := S256x64) atCorner]
  obtain ⟨e0, e1, e2, e3, e4, e5⟩ := blockIndex t
  funext j
  obtain ⟨p, q, rfl⟩ : ∃ (p : Fin 10000) (q : Fin 64), j = ix2 p q := ⟨j 0, j 1, eq_ix2 j⟩
  have hA : ∀ cc : Fin 256, (iblk0 V c 0 t : Vec Ideal S10000x256 .f32) (ix2 p cc)
      = (V c main_arg0 : Vec Ideal S50000x256 .f32) (ix2 ((((cfg0.win 2).blk t).view.emb (ix2 p q)) 0) cc) := by
    intro cc
    show (V c main_arg0 : Vec Ideal S50000x256 .f32) (((cfg0.win 0).blk t).view.emb (ix2 p cc)) = _
    refine congrArg _ ?_
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 256 + 1 * cc.val = cc.val; omega
  have hW : ∀ cc : Fin 256, (iblk0 V c 1 t : Vec Ideal S256x64 .f32) (ix2 cc q)
      = (V c main_arg3 : Vec Ideal S256x64 .f32) (ix2 cc ((((cfg0.win 2).blk t).view.emb (ix2 p q)) 1)) := by
    intro cc
    show (V c main_arg3 : Vec Ideal S256x64 .f32) (((cfg0.win 1).blk t).view.emb (ix2 cc q)) = _
    refine congrArg _ ?_
    funext a; apply Fin.ext
    match a with
    | ⟨0, _⟩ => show win0_1.index t (0 : Fin 2) * 256 + 1 * cc.val = cc.val; omega
    | ⟨1, _⟩ => show win0_1.index t (1 : Fin 2) * 64 + 1 * q.val = win0_2.index t (1 : Fin 2) * 64 + 1 * q.val; omega
  exact stored_entry_of (V c main_arg0) (V c main_arg3) _ _ p q _ hA hW

/-- An index of the array is in point t's block iff each coordinate is in the block's range on its axis. -/
theorem inBlock (t : Fin cfg0.N) (i : S50000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- Row r lies in the block of point r / 10000: the five blocks fill the array. -/
theorem rowsFill (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 5 := N_0
  have ht : (i 0).val / 10000 < cfg0.N := by rw [hN]; omega
  refine ⟨⟨(i 0).val / 10000, ht⟩, flush0_2 _, ?_⟩
  rw [inBlock]
  obtain ⟨-, -, -, -, e4, e5⟩ := blockIndex ⟨(i 0).val / 10000, ht⟩
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    rw [e5]; omega

/-- The result array when the region ends. -/
theorem result_eq (c : Dev nD) :
    (dat0 V c).arrAt 2 cfg0.N = matProd (m := 50000) (k := 256) (n := 64) (V c main_arg0) (V c main_arg3) :=
  (dat0 V c).arrAt_eq_of_cover 2 _ (fun t _ => writtenBack V c t) rowsFill

end Cert.KernelIdeal.Mat0

end
-- ==== Proof.RegionBias1.lean ====
/- Region 1 of the kernel program (a bias row added and max(., 0) taken, five blocks of 10000 rows): what its result
   array holds when the region ends, as one function of the two arrays it reads.

   At grid point t the body loads rows 10000 t ... 10000 t + 9999 of the input A (a [50000, 64] array) and the one row B
   (a [1, 64] array), and stores max(A(r, j) + B(0, j), 0) for each of those rows.  Every point writes its block back, the
   five blocks are disjoint and fill the array, so the result array ends at  max(A + B's row, 0)  entry by entry. -/
import proofs.«181904_j19602230739293_1_alg».proof.Proof.Gen.KernelIdeal.Frame
import proofs.«181904_j19602230739293_1_alg».proof.Proof.LibDenseRelu
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Bias1

open Cert.KernelIdeal Cert.KernelIdeal.Gen Cert.DenseRelu

variable (V : (c : Dev nD) → (b : Ref sig .tc) → Buf (Elt Ideal) ((c : Thread nD τ).loc b))

/-- The body's loads and its store start at the corner of their buffers. -/
theorem atCorner : (![0, 0] : Fin 2 → Nat) = fun _ => 0 := funext fun a => by fin_cases a <;> rfl

/-- The stored value at an entry of the block: the input's entry plus the row's entry in that column, against zero
    (the two casts are of a shape to itself, and the row is repeated down the block). -/
theorem stored_entry (x0 : Vec Ideal S10000x64 .f32) (x1 : Vec Ideal S1x64 .f32) (p : Fin 10000) (q : Fin 64) :
    k1_pay1 (F := Ideal) x0 x1 (ix2 p q) = max (x0 (ix2 p q) + x1 (ix2 (0 : Fin 1) q)) (Ideal.ofBits .f32 0x00000000#32) := by
  show max (shapeCast S10000x64 x0 shapeCasts_S10000x64_S10000x64 (ix2 p q)
      + broadcastTo S10000x64 (shapeCast S1x64 x1 shapeCasts_S1x64_S1x64) broadcasts_S1x64_S10000x64 (ix2 p q))
    (Ideal.ofBits .f32 0x00000000#32) = _
  rw [shapeCast_self, rowsOf_apply (m := 10000) (k := 64), shapeCast_self]

/-- If the loaded entries are A at i and B's row in i's column, the stored entry is max(A + B's row, 0) at i. -/
theorem stored_entry_of (A : Vec Ideal S50000x64 .f32) (B : Vec Ideal S1x64 .f32)
    (x0 : Vec Ideal S10000x64 .f32) (x1 : Vec Ideal S1x64 .f32) (p : Fin 10000) (q : Fin 64) (i : S50000x64.Idx)
    (hA : x0 (ix2 p q) = A i) (hB : x1 (ix2 (0 : Fin 1) q) = B (ix2 (0 : Fin 1) (i 1))) :
    k1_pay1 (F := Ideal) x0 x1 (ix2 p q) = rectifiedRow (m := 50000) (k := 64) A B i := by
  rw [stored_entry, hA, hB]; rfl

/-- The index maps over the grid: the input's and the output's block at point t is row block t; the bias row's block
    is the only one. -/
theorem blockIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of max(A + B's row, 0). -/
theorem writtenBack (c : Dev nD) (t : Fin cfg1.N) :
    (dat1 V c).flushed 2 t = ((cfg1.win 2).blk t).view.read (Elt Ideal)
      (rectifiedRow (m := 50000) (k := 64) (V c main_v43) (V c main_v44)) := by
  show (cfg1.win 2).cut (grid1.coords t) ((dat1 V c).after 2 t) = _
  rw [after1_2]
  unfold out1_2
  rw [View.canon_unit_zero atCorner]
  simp only [View.ld_unit_zero (S := S10000x64) atCorner, View.ld_unit_zero (S := S1x64) atCorner]
  obtain ⟨e0, e1, e2, e3, e4, e5⟩ := blockIndex t
  funext j
  obtain ⟨p, q, rfl⟩ : ∃ (p : Fin 10000) (q : Fin 64), j = ix2 p q := ⟨j 0, j 1, eq_ix2 j⟩
  have hA : (iblk1 V c 0 t : Vec Ideal S10000x64 .f32) (ix2 p q)
      = (V c main_v43 : Vec Ideal S50000x64 .f32) (((cfg1.win 2).blk t).view.emb (ix2 p q)) := by
    show (V c main_v43 : Vec Ideal S50000x64 .f32) (((cfg1.win 0).blk t).view.emb (ix2 p q)) = _
    refine congrArg _ ?_
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have hB : (iblk1 V c 1 t : Vec Ideal S1x64 .f32) (ix2 (0 : Fin 1) q)
      = (V c main_v44 : Vec Ideal S1x64 .f32) (ix2 (0 : Fin 1) ((((cfg1.win 2).blk t).view.emb (ix2 p q)) 1)) := by
    show (V c main_v44 : Vec Ideal S1x64 .f32) (((cfg1.win 1).blk t).view.emb (ix2 (0 : Fin 1) q)) = _
    refine congrArg _ ?_
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  exact stored_entry_of (V c main_v43) (V c main_v44) _ _ p q _ hA hB

/-- An index of the array is in point t's block iff each coordinate is in the block's range on its axis. -/
theorem inBlock (t : Fin cfg1.N) (i : S50000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v45).slice (win1_2.rect t)).set ↔ _
  rw [View.set_slice_whole, Rect.mem_set_unit]
  exact Iff.rfl

/-- Row r lies in the block of point r / 10000: the five blocks fill the array. -/
theorem rowsFill (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 5 := N_1
  have ht : (i 0).val / 10000 < cfg1.N := by rw [hN]; omega
  refine ⟨⟨(i 0).val / 10000, ht⟩, flush1_2 _, ?_⟩
  rw [inBlock]
  obtain ⟨-, -, -, -, e4, e5⟩ := blockIndex ⟨(i 0).val / 10000, ht⟩
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val
      ∧ (i 1).val < win1_2.index ⟨(i 0).val / 10000, ht⟩ (1 : Fin 2) * 64 + 64
    rw [e5]; omega

/-- The result array when the region ends. -/
theorem result_eq (c : Dev nD) :
    (dat1 V c).arrAt 2 cfg1.N = rectifiedRow (m := 50000) (k := 64) (V c main_v43) (V c main_v44) :=
  (dat1 V c).arrAt_eq_of_cover 2 _ (fun t _ => writtenBack V c t) rowsFill

end Cert.KernelIdeal.Bias1

end
-- ==== Proof.RegionMat2.lean ====
/- Region 2 of the kernel program (a matrix product on the matrix unit, five blocks of 10000 rows): what its result
   array holds when the region ends, as one function of the two arrays it reads.

   At grid point t the body loads rows 10000 t ... 10000 t + 9999 of A (a [50000, 64] array) and the whole of W (a [64, 64] array),
   narrows both (no rounding on the extended reals) and multiplies them into a zero accumulator, so it stores, for each
   of those rows r and each column j, the sum over c of A(r, c) * W(c, j).  Every point writes its block back, the five
   blocks are disjoint and fill the array, so the result array ends at the product A W entry by entry. -/
import proofs.«181904_j19602230739293_1_alg».proof.Proof.Gen.KernelIdeal.Frame
import proofs.«181904_j19602230739293_1_alg».proof.Proof.LibMatProd
import proofs.«181904_j19602230739293_1_alg».proof.Proof.LibRowBlocks
import Idealize.ShloMosaic.Lib.Pipeline.Value
import Idealize.ShloMosaic.Lib.ValueIdx

noncomputable section

open scoped BigOperators

open Idealize.ShloMosaic Idealize.ShloMosaic.TcCoe Idealize.SL.Sem Idealize.ShloMosaic.ValueIdx
open Idealize.ShloMosaic.Pipeline (Dat)

namespace Cert.KernelIdeal.Mat2

open Cert.KernelIdeal Cert.KernelIdeal.Gen Cert.MatProd

variable (V : (c : Dev nD) → (b : Ref sig .tc) → Buf (Elt Ideal) ((c : Thread nD τ).loc b))

/-- The body's loads and its store start at the corner of their buffers. -/
theorem atCorner : (![0, 0] : Fin 2 → Nat) = fun _ => 0 := funext fun a => by fin_cases a <;> rfl

/-- The stored value at an entry of the block: row p of the loaded block against column q of the loaded weights. -/
theorem stored_entry (x0 : Vec Ideal S10000x64 .f32) (x1 : Vec Ideal S64x64 .f32) (p : Fin 10000) (q : Fin 64) :
    k2_pay1 (F := Ideal) x0 x1 (ix2 p q) = ∑ cc : Fin 64, x0 (ix2 p cc) * x1 (ix2 cc q) := by
  unfold k2_pay1
  refine (Cert.RowBlocks.matmulZero_apply (m := 10000) (k := 64) (n := 64) dot_S10000x64_S64x64_S10000x64_1_0_0_1_n_n.wf none
    _ _ p q).trans ?_
  refine Finset.sum_congr rfl fun cc _ => ?_
  first | (rw [shapeCast_self]; rfl) | rfl

/-- If the loaded block's row p is A's row of i and the loaded weights are W, the stored entry is (A W) at i. -/
theorem stored_entry_of (A : Vec Ideal S50000x64 .f32) (W : Vec Ideal S64x64 .f32)
    (x0 : Vec Ideal S10000x64 .f32) (x1 : Vec Ideal S64x64 .f32) (p : Fin 10000) (q : Fin 64) (i : S50000x64.Idx)
    (hA : ∀ cc : Fin 64, x0 (ix2 p cc) = A (ix2 (i 0) cc)) (hW : ∀ cc : Fin 64, x1 (ix2 cc q) = W (ix2 cc (i 1))) :
    k2_pay1 (F := Ideal) x0 x1 (ix2 p q) = matProd (m := 50000) (k := 64) (n := 64) A W i := by
  rw [stored_entry]
  exact Finset.sum_congr rfl fun cc _ => by rw [hA cc, hW cc]

/-- The index maps over the grid: A's and the output's block at point t is row block t; W's block is the only one. -/
theorem blockIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product A W. -/
theorem writtenBack (c : Dev nD) (t : Fin cfg2.N) :
    (dat2 V c).flushed 2 t = ((cfg2.win 2).blk t).view.read (Elt Ideal)
      (matProd (m := 50000) (k := 64) (n := 64) (V c main_v45) (V c main_arg5)) := by
  show (cfg2.win 2).cut (grid2.coords t) ((dat2 V c).after 2 t) = _
  rw [after2_2]
  unfold out2_2
  rw [View.canon_unit_zero atCorner]
  simp only [View.ld_unit_zero (S := S10000x64) atCorner, View.ld_unit_zero (S := S64x64) atCorner]
  obtain ⟨e0, e1, e2, e3, e4, e5⟩ := blockIndex t
  funext j
  obtain ⟨p, q, rfl⟩ : ∃ (p : Fin 10000) (q : Fin 64), j = ix2 p q := ⟨j 0, j 1, eq_ix2 j⟩
  have hA : ∀ cc : Fin 64, (iblk2 V c 0 t : Vec Ideal S10000x64 .f32) (ix2 p cc)
      = (V c main_v45 : Vec Ideal S50000x64 .f32) (ix2 ((((cfg2.win 2).blk t).view.emb (ix2 p q)) 0) cc) := by
    intro cc
    show (V c main_v45 : Vec Ideal S50000x64 .f32) (((cfg2.win 0).blk t).view.emb (ix2 p cc)) = _
    refine congrArg _ ?_
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * cc.val = cc.val; omega
  have hW : ∀ cc : Fin 64, (iblk2 V c 1 t : Vec Ideal S64x64 .f32) (ix2 cc q)
      = (V c main_arg5 : Vec Ideal S64x64 .f32) (ix2 cc ((((cfg2.win 2).blk t).view.emb (ix2 p q)) 1)) := by
    intro cc
    show (V c main_arg5 : Vec Ideal S64x64 .f32) (((cfg2.win 1).blk t).view.emb (ix2 cc q)) = _
    refine congrArg _ ?_
    funext a; apply Fin.ext
    match a with
    | ⟨0, _⟩ => show win2_1.index t (0 : Fin 2) * 64 + 1 * cc.val = cc.val; omega
    | ⟨1, _⟩ => show win2_1.index t (1 : Fin 2) * 64 + 1 * q.val = win2_2.index t (1 : Fin 2) * 64 + 1 * q.val; omega
  exact stored_entry_of (V c main_v45) (V c main_arg5) _ _ p q _ hA hW

/-- An index of the array is in point t's block iff each coordinate is in the block's range on its axis. -/
theorem inBlock (t : Fin cfg2.N) (i : S50000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v46).slice (win2_2.rect t)).set ↔ _
  rw [View.set_slice_whole, Rect.mem_set_unit]
  exact Iff.rfl

/-- Row r lies in the block of point r / 10000: the five blocks fill the array. -/
theorem rowsFill (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 5 := N_2
  have ht : (i 0).val / 10000 < cfg2.N := by rw [hN]; omega
  refine ⟨⟨(i 0).val / 10000, ht⟩, flush2_2 _, ?_⟩
  rw [inBlock]
  obtain ⟨-, -, -, -, e4, e5⟩ := blockIndex ⟨(i 0).val / 10000, ht⟩
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ (1 : Fin 2) * 64 ≤ (i 1).val
      ∧ (i 1).val < win2_2.index ⟨(i 0).val / 10000, ht⟩ (1 : Fin 2) * 64 + 64
    rw [e5]; omega

/-- The result array when the region ends. -/
theorem result_eq (c : Dev nD) :
    (dat2 V c).arrAt 2 cfg2.N = matProd (m := 50000) (k := 64) (n := 64) (V c main_v45) (V c main_arg5) :=
  (dat2 V c).arrAt_eq_of_cover 2 _ (fun t _ => writtenBack V c t) rowsFill

end Cert.KernelIdeal.Mat2

end
-- ==== Proof.RegionBias3.lean ====
/- Region 3 of the kernel program (a bias row added and max(., 0) taken, five blocks of 10000 rows): what its result
   array holds when the region ends, as one function of the two arrays it reads.

   At grid point t the body loads rows 10000 t ... 10000 t + 9999 of the input A (a [50000, 64] array) and the one row B
   (a [1, 64] array), and stores max(A(r, j) + B(0, j), 0) for each of those rows.  Every point writes its block back, the
   five blocks are disjoint and fill the array, so the result array ends at  max(A + B's row, 0)  entry by entry. -/
import proofs.«181904_j19602230739293_1_alg».proof.Proof.Gen.KernelIdeal.Frame
import proofs.«181904_j19602230739293_1_alg».proof.Proof.LibDenseRelu
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Bias3

open Cert.KernelIdeal Cert.KernelIdeal.Gen Cert.DenseRelu

variable (V : (c : Dev nD) → (b : Ref sig .tc) → Buf (Elt Ideal) ((c : Thread nD τ).loc b))

/-- The body's loads and its store start at the corner of their buffers. -/
theorem atCorner : (![0, 0] : Fin 2 → Nat) = fun _ => 0 := funext fun a => by fin_cases a <;> rfl

/-- The stored value at an entry of the block: the input's entry plus the row's entry in that column, against zero
    (the two casts are of a shape to itself, and the row is repeated down the block). -/
theorem stored_entry (x0 : Vec Ideal S10000x64 .f32) (x1 : Vec Ideal S1x64 .f32) (p : Fin 10000) (q : Fin 64) :
    k3_pay1 (F := Ideal) x0 x1 (ix2 p q) = max (x0 (ix2 p q) + x1 (ix2 (0 : Fin 1) q)) (Ideal.ofBits .f32 0x00000000#32) := by
  show max (shapeCast S10000x64 x0 shapeCasts_S10000x64_S10000x64 (ix2 p q)
      + broadcastTo S10000x64 (shapeCast S1x64 x1 shapeCasts_S1x64_S1x64) broadcasts_S1x64_S10000x64 (ix2 p q))
    (Ideal.ofBits .f32 0x00000000#32) = _
  rw [shapeCast_self, rowsOf_apply (m := 10000) (k := 64), shapeCast_self]

/-- If the loaded entries are A at i and B's row in i's column, the stored entry is max(A + B's row, 0) at i. -/
theorem stored_entry_of (A : Vec Ideal S50000x64 .f32) (B : Vec Ideal S1x64 .f32)
    (x0 : Vec Ideal S10000x64 .f32) (x1 : Vec Ideal S1x64 .f32) (p : Fin 10000) (q : Fin 64) (i : S50000x64.Idx)
    (hA : x0 (ix2 p q) = A i) (hB : x1 (ix2 (0 : Fin 1) q) = B (ix2 (0 : Fin 1) (i 1))) :
    k3_pay1 (F := Ideal) x0 x1 (ix2 p q) = rectifiedRow (m := 50000) (k := 64) A B i := by
  rw [stored_entry, hA, hB]; rfl

/-- The index maps over the grid: the input's and the output's block at point t is row block t; the bias row's block
    is the only one. -/
theorem blockIndex : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of max(A + B's row, 0). -/
theorem writtenBack (c : Dev nD) (t : Fin cfg3.N) :
    (dat3 V c).flushed 2 t = ((cfg3.win 2).blk t).view.read (Elt Ideal)
      (rectifiedRow (m := 50000) (k := 64) (V c main_v59) (V c main_v60)) := by
  show (cfg3.win 2).cut (grid3.coords t) ((dat3 V c).after 2 t) = _
  rw [after3_2]
  unfold out3_2
  rw [View.canon_unit_zero atCorner]
  simp only [View.ld_unit_zero (S := S10000x64) atCorner, View.ld_unit_zero (S := S1x64) atCorner]
  obtain ⟨e0, e1, e2, e3, e4, e5⟩ := blockIndex t
  funext j
  obtain ⟨p, q, rfl⟩ : ∃ (p : Fin 10000) (q : Fin 64), j = ix2 p q := ⟨j 0, j 1, eq_ix2 j⟩
  have hA : (iblk3 V c 0 t : Vec Ideal S10000x64 .f32) (ix2 p q)
      = (V c main_v59 : Vec Ideal S50000x64 .f32) (((cfg3.win 2).blk t).view.emb (ix2 p q)) := by
    show (V c main_v59 : Vec Ideal S50000x64 .f32) (((cfg3.win 0).blk t).view.emb (ix2 p q)) = _
    refine congrArg _ ?_
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 64 + 1 * q.val = win3_2.index t (1 : Fin 2) * 64 + 1 * q.val; omega
  have hB : (iblk3 V c 1 t : Vec Ideal S1x64 .f32) (ix2 (0 : Fin 1) q)
      = (V c main_v60 : Vec Ideal S1x64 .f32) (ix2 (0 : Fin 1) ((((cfg3.win 2).blk t).view.emb (ix2 p q)) 1)) := by
    show (V c main_v60 : Vec Ideal S1x64 .f32) (((cfg3.win 1).blk t).view.emb (ix2 (0 : Fin 1) q)) = _
    refine congrArg _ ?_
    funext a; apply Fin.ext
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  exact stored_entry_of (V c main_v59) (V c main_v60) _ _ p q _ hA hB

/-- An index of the array is in point t's block iff each coordinate is in the block's range on its axis. -/
theorem inBlock (t : Fin cfg3.N) (i : S50000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v61).slice (win3_2.rect t)).set ↔ _
  rw [View.set_slice_whole, Rect.mem_set_unit]
  exact Iff.rfl

/-- Row r lies in the block of point r / 10000: the five blocks fill the array. -/
theorem rowsFill (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 5 := N_3
  have ht : (i 0).val / 10000 < cfg3.N := by rw [hN]; omega
  refine ⟨⟨(i 0).val / 10000, ht⟩, flush3_2 _, ?_⟩
  rw [inBlock]
  obtain ⟨-, -, -, -, e4, e5⟩ := blockIndex ⟨(i 0).val / 10000, ht⟩
  intro a
  match a with
  | ⟨0, _⟩ =>
    show win3_2.index ⟨(i 0).val / 10000, ht⟩ (0 : Fin 2) * 10000 ≤ (i 0).val
      ∧ (i 0).val < win3_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, ht⟩ (1 : Fin 2) * 64 ≤ (i 1).val
      ∧ (i 1).val < win3_2.index ⟨(i 0).val / 10000, ht⟩ (1 : Fin 2) * 64 + 64
    rw [e5]; omega

/-- The result array when the region ends. -/
theorem result_eq (c : Dev nD) :
    (dat3 V c).arrAt 2 cfg3.N = rectifiedRow (m := 50000) (k := 64) (V c main_v59) (V c main_v60) :=
  (dat3 V c).arrAt_eq_of_cover 2 _ (fun t _ => writtenBack V c t) rowsFill

end Cert.KernelIdeal.Bias3

end
-- ==== Proof.RegionHead4.lean ====
/- Region 4 of the kernel program (the head, one grid point, every array whole): what its result array holds when the
   region ends, as one function of the five arrays it reads.

   The body loads the pooled matrix p ([64, 64]), the weights F1 ([64, 128]) and F2 ([128, 4]) and the two bias rows
   r1 ([1, 128]) and r2 ([1, 4]); it multiplies p by F1 into a zero accumulator, adds r1 to every row, takes max(., 0),
   multiplies by F2 into a zero accumulator and adds r2 to every row (the narrowings round nothing on the extended
   reals).  The one point writes the whole [64, 4] block back. -/
import proofs.«181904_j19602230739293_1_alg».proof.Proof.Gen.KernelIdeal.Frame
import proofs.«181904_j19602230739293_1_alg».proof.Proof.LibMatProd
import proofs.«181904_j19602230739293_1_alg».proof.Proof.LibRowBlocks
import proofs.«181904_j19602230739293_1_alg».proof.Proof.LibDenseRelu
import Idealize.ShloMosaic.Lib.Pipeline.Value
import Idealize.ShloMosaic.Lib.ValueIdx

noncomputable section

open scoped BigOperators

open Idealize.ShloMosaic Idealize.ShloMosaic.TcCoe Idealize.SL.Sem Idealize.ShloMosaic.ValueIdx
open Idealize.ShloMosaic.Pipeline (Dat)

namespace Cert.KernelIdeal.Head4

open Cert.KernelIdeal Cert.KernelIdeal.Gen Cert.MatProd Cert.DenseRelu

/-- The head with its two biases held as one-row matrices: max(p F1 + r1's row, 0) F2 + r2's row, entry by entry. -/
def headRows (p : (⟨2, ![64, 64]⟩ : Shape).Idx → EReal) (w1 : (⟨2, ![64, 128]⟩ : Shape).Idx → EReal)
    (r1 : (⟨2, ![1, 128]⟩ : Shape).Idx → EReal) (w2 : (⟨2, ![128, 4]⟩ : Shape).Idx → EReal)
    (r2 : (⟨2, ![1, 4]⟩ : Shape).Idx → EReal) : (⟨2, ![64, 4]⟩ : Shape).Idx → EReal :=
  fun i => matProd (rectifiedRow (matProd p w1) r1) w2 i + r2 (ix2 (0 : Fin 1) (i 1))

variable (V : (c : Dev nD) → (b : Ref sig .tc) → Buf (Elt Ideal) ((c : Thread nD τ).loc b))

/-- The body's loads and its store start at the corner of their buffers. -/
theorem atCorner : (![0, 0] : Fin 2 → Nat) = fun _ => 0 := funext fun a => by fin_cases a <;> rfl

/-- The stored value at an entry. -/
theorem stored_entry (x0 : Vec Ideal S64x64 .f32) (x1 : Vec Ideal S64x128 .f32) (x2 : Vec Ideal S1x128 .f32)
    (x3 : Vec Ideal S128x4 .f32) (x4 : Vec Ideal S1x4 .f32) (p : Fin 64) (q : Fin 4) :
    k4_pay1 (F := Ideal) x0 x1 x2 x3 x4 (ix2 p q) = headRows x0 x1 x2 x3 x4 (ix2 p q) := by
  show (matmul dot_S64x128_S128x4_S64x4_1_0_0_1_n_n none
        (truncf .bf16 (maximumf (addf (matmul dot_S64x64_S64x128_S64x128_1_0_0_1_n_n none
              (truncf .bf16 (shapeCast S64x64 x0 shapeCasts_S64x64_S64x64) bitsLt_bf16_f32) (truncf .bf16 x1 bitsLt_bf16_f32)
              (constant S64x128 .f32 0x00000000#32))
            (broadcastTo S64x128 (shapeCast S1x128 x2 shapeCasts_S1x128_S1x128) broadcasts_S1x128_S64x128))
          (broadcast S64x128 (Scalar.ofBits (F := Ideal) .f32 0x00000000#32))) bitsLt_bf16_f32)
        (truncf .bf16 x3 bitsLt_bf16_f32) (constant S64x4 .f32 0x00000000#32) (ix2 p q))
      + broadcastTo S64x4 (shapeCast S1x4 x4 shapeCasts_S1x4_S1x4) broadcasts_S1x4_S64x4 (ix2 p q)
    = (∑ cc : Fin 128, max ((∑ c' : Fin 64, x0 (ix2 p c') * x1 (ix2 c' cc)) + x2 (ix2 (0 : Fin 1) cc)) (Ideal.ofBits .f32 0x00000000#32) * x3 (ix2 cc q))
      + x4 (ix2 (0 : Fin 1) q)
  rw [rowsOf_apply (m := 64) (k := 4)]
  simp only [shapeCast_self]
  refine congrArg (· + x4 (ix2 (0 : Fin 1) q)) ?_
  refine (Cert.RowBlocks.matmulZero_apply (m := 64) (k := 128) (n := 4) dot_S64x128_S128x4_S64x4_1_0_0_1_n_n.wf none _ _ p q).trans ?_
  refine Finset.sum_congr rfl fun cc _ => ?_
  refine congrArg (· * x3 (ix2 cc q)) ?_
  show max (matmul (F := Ideal) dot_S64x64_S64x128_S64x128_1_0_0_1_n_n none (truncf .bf16 x0 bitsLt_bf16_f32) (truncf .bf16 x1 bitsLt_bf16_f32)
        (constant (F := Ideal) S64x128 .f32 0x00000000#32) (ix2 p cc) + broadcastTo S64x128 x2 broadcasts_S1x128_S64x128 (ix2 p cc))
      (Ideal.ofBits .f32 0x00000000#32) = _
  rw [rowsOf_apply (m := 64) (k := 128)]
  refine congrArg (fun u => max (u + x2 (ix2 (0 : Fin 1) cc)) (Ideal.ofBits .f32 0x00000000#32)) ?_
  exact Cert.RowBlocks.matmulZero_apply (m := 64) (k := 64) (n := 128) dot_S64x64_S64x128_S64x128_1_0_0_1_n_n.wf none _ _ p cc

/-- Every window's one block is the whole of its array. -/
theorem blockIndex : ∀ (t : Fin cfg4.N) (a : Fin 2), win4_0.index t a = 0 ∧ win4_1.index t a = 0 ∧ win4_2.index t a = 0
    ∧ win4_3.index t a = 0 ∧ win4_4.index t a = 0 ∧ win4_5.index t a = 0 :=
  (by decide +kernel : ∀ (t : Fin grid4.N) (a : Fin 2), _)

/-- What the one point writes back is the head of the five arrays, whole. -/
theorem writtenBack (c : Dev nD) (t : Fin cfg4.N) :
    (dat4 V c).flushed 5 t = ((cfg4.win 5).blk t).view.read (Elt Ideal)
      (headRows (V c main_v73) (V c main_arg7) (V c main_v74) (V c main_arg9) (V c main_v75)) := by
  show (cfg4.win 5).cut (grid4.coords t) ((dat4 V c).after 5 t) = _
  rw [after4_5]
  unfold out4_5
  rw [View.canon_unit_zero atCorner]
  simp only [View.ld_unit_zero (S := S64x64) atCorner, View.ld_unit_zero (S := S64x128) atCorner,
    View.ld_unit_zero (S := S1x128) atCorner, View.ld_unit_zero (S := S128x4) atCorner, View.ld_unit_zero (S := S1x4) atCorner]
  have hI := blockIndex t
  funext j
  obtain ⟨p, q, rfl⟩ : ∃ (p : Fin 64) (q : Fin 4), j = ix2 p q := ⟨j 0, j 1, eq_ix2 j⟩
  refine (stored_entry _ _ _ _ _ p q).trans ?_
  have h5 : ((cfg4.win 5).blk t).view.emb (ix2 p q) = ix2 p q := by
    funext a; apply Fin.ext
    match a with
    | ⟨0, _⟩ => show win4_5.index t (0 : Fin 2) * 64 + 1 * p.val = p.val; have := (hI 0).2.2.2.2.2; omega
    | ⟨1, _⟩ => show win4_5.index t (1 : Fin 2) * 4 + 1 * q.val = q.val; have := (hI 1).2.2.2.2.2; omega
  have b0 : (iblk4 V c 0 t : Vec Ideal S64x64 .f32) = (V c main_v73 : Vec Ideal S64x64 .f32) := by
    funext y
    show (V c main_v73 : Vec Ideal S64x64 .f32) (((cfg4.win 0).blk t).view.emb y) = _
    refine congrArg _ ?_
    funext a; apply Fin.ext
    match a with
    | ⟨0, _⟩ => show win4_0.index t (0 : Fin 2) * 64 + 1 * (y 0).val = (y 0).val; have := (hI 0).1; omega
    | ⟨1, _⟩ => show win4_0.index t (1 : Fin 2) * 64 + 1 * (y 1).val = (y 1).val; have := (hI 1).1; omega
  have b1 : (iblk4 V c 1 t : Vec Ideal S64x128 .f32) = (V c main_arg7 : Vec Ideal S64x128 .f32) := by
    funext y
    show (V c main_arg7 : Vec Ideal S64x128 .f32) (((cfg4.win 1).blk t).view.emb y) = _
    refine congrArg _ ?_
    funext a; apply Fin.ext
    match a with
    | ⟨0, _⟩ => show win4_1.index t (0 : Fin 2) * 64 + 1 * (y 0).val = (y 0).val; have := (hI 0).2.1; omega
    | ⟨1, _⟩ => show win4_1.index t (1 : Fin 2) * 128 + 1 * (y 1).val = (y 1).val; have := (hI 1).2.1; omega
  have b2 : (iblk4 V c 2 t : Vec Ideal S1x128 .f32) = (V c main_v74 : Vec Ideal S1x128 .f32) := by
    funext y
    show (V c main_v74 : Vec Ideal S1x128 .f32) (((cfg4.win 2).blk t).view.emb y) = _
    refine congrArg _ ?_
    funext a; apply Fin.ext
    match a with
    | ⟨0, _⟩ => show win4_2.index t (0 : Fin 2) * 1 + 1 * (y 0).val = (y 0).val; have := (hI 0).2.2.1; omega
    | ⟨1, _⟩ => show win4_2.index t (1 : Fin 2) * 128 + 1 * (y 1).val = (y 1).val; have := (hI 1).2.2.1; omega
  have b3 : (iblk4 V c 3 t : Vec Ideal S128x4 .f32) = (V c main_arg9 : Vec Ideal S128x4 .f32) := by
    funext y
    show (V c main_arg9 : Vec Ideal S128x4 .f32) (((cfg4.win 3).blk t).view.emb y) = _
    refine congrArg _ ?_
    funext a; apply Fin.ext
    match a with
    | ⟨0, _⟩ => show win4_3.index t (0 : Fin 2) * 128 + 1 * (y 0).val = (y 0).val; have := (hI 0).2.2.2.1; omega
    | ⟨1, _⟩ => show win4_3.index t (1 : Fin 2) * 4 + 1 * (y 1).val = (y 1).val; have := (hI 1).2.2.2.1; omega
  have b4 : (iblk4 V c 4 t : Vec Ideal S1x4 .f32) = (V c main_v75 : Vec Ideal S1x4 .f32) := by
    funext y
    show (V c main_v75 : Vec Ideal S1x4 .f32) (((cfg4.win 4).blk t).view.emb y) = _
    refine congrArg _ ?_
    funext a; apply Fin.ext
    match a with
    | ⟨0, _⟩ => show win4_4.index t (0 : Fin 2) * 1 + 1 * (y 0).val = (y 0).val; have := (hI 0).2.2.2.2.1; omega
    | ⟨1, _⟩ => show win4_4.index t (1 : Fin 2) * 4 + 1 * (y 1).val = (y 1).val; have := (hI 1).2.2.2.2.1; omega
  show headRows (iblk4 V c 0 t : Vec Ideal S64x64 .f32) (iblk4 V c 1 t : Vec Ideal S64x128 .f32) (iblk4 V c 2 t : Vec Ideal S1x128 .f32)
      (iblk4 V c 3 t : Vec Ideal S128x4 .f32) (iblk4 V c 4 t : Vec Ideal S1x4 .f32) (ix2 p q)
    = headRows (V c main_v73) (V c main_arg7) (V c main_v74) (V c main_arg9) (V c main_v75) (((cfg4.win 5).blk t).view.emb (ix2 p q))
  rw [b0, b1, b2, b3, b4, h5]

/-- The one block is the whole array. -/
theorem wholeBlock (i : S64x4.Idx) :
    ∃ t : Fin cfg4.N, (cfg4.win 5).flush t = true ∧ i ∈ ((cfg4.win 5).blk t).view.set := by
  have hi0 : (i 0).val < 64 := (i 0).isLt
  have hi1 : (i 1).val < 4 := (i 1).isLt
  refine ⟨t4_0, (by decide +kernel : win4_5.flush t4_0 = true), ?_⟩
  show i ∈ ((View.whole main_v76).slice (win4_5.rect t4_0)).set
  rw [View.set_slice_whole, Rect.mem_set_unit]
  have hI := blockIndex t4_0
  intro a
  match a with
  | ⟨0, _⟩ =>
    show win4_5.index t4_0 (0 : Fin 2) * 64 ≤ (i 0).val ∧ (i 0).val < win4_5.index t4_0 (0 : Fin 2) * 64 + 64
    have := (hI 0).2.2.2.2.2; omega
  | ⟨1, _⟩ =>
    show win4_5.index t4_0 (1 : Fin 2) * 4 ≤ (i 1).val ∧ (i 1).val < win4_5.index t4_0 (1 : Fin 2) * 4 + 4
    have := (hI 1).2.2.2.2.2; omega

/-- The result array when the region ends. -/
theorem result_eq (c : Dev nD) :
    (dat4 V c).arrAt 5 cfg4.N = headRows (V c main_v73) (V c main_arg7) (V c main_v74) (V c main_arg9) (V c main_v75) :=
  (dat4 V c).arrAt_eq_of_cover 5 _ (fun t _ => writtenBack V c t) wholeBlock

end Cert.KernelIdeal.Head4

end
-- ==== Proof.KernelValue.lean ====
/- The kernel program's result is the network: the buffer contents at each boundary of its run, followed from the launch
   to the result array.

   The run alternates host stretches and kernel regions.  A stretch rewrites the buffers it writes and a region the
   result array of its kernel; every other buffer passes through.  So each value is followed from where it is made to
   where it is read: the endpoints, dinv and the edge norm from the first three stretches to both aggregations; each
   region's result (a product, or max(. + bias row, 0), by the regions' own lemmas) into the next stretch or region; the
   arguments from the launch to wherever they are first read.  The bias rows the kernels read are the bias vectors cast
   to one row, which changes no entry. -/
import proofs.«181904_j19602230739293_1_alg».proof.Proof.Gen.KernelIdeal.Frame
import proofs.«181904_j19602230739293_1_alg».proof.Proof.Stages
import proofs.«181904_j19602230739293_1_alg».proof.Proof.Stretches
import proofs.«181904_j19602230739293_1_alg».proof.Proof.RegionMat0
import proofs.«181904_j19602230739293_1_alg».proof.Proof.RegionBias1
import proofs.«181904_j19602230739293_1_alg».proof.Proof.RegionMat2
import proofs.«181904_j19602230739293_1_alg».proof.Proof.RegionBias3
import proofs.«181904_j19602230739293_1_alg».proof.Proof.RegionHead4
import proofs.«181904_j19602230739293_1_alg».proof.Proof.LibBiasRow

noncomputable section

open scoped BigOperators

namespace Cert.KernelIdeal.Net

open Idealize.ShloMosaic Idealize.ShloMosaic.ValueIdx Idealize.ShloMosaic.TcCoe Idealize.SL.Sem Idealize.ShloMosaic.StableHlo
open Cert.KernelIdeal Cert.KernelIdeal.Gen Cert.KernelIdeal.Stretch Cert.KernelIdeal.Head4
open Cert.Gcn Cert.MatProd Cert.DenseRelu

variable (m : (ℓ : Loc nD τ sig) → Buf (Elt Ideal) ℓ) (ρ : Dev nD → PrngReg) (c : Dev nD)

/-! ## Buffers that pass through -/

theorem keep3 {r : Ref sig .tc} (hA : r ∉ writtenA) (hB : r ∉ writtenB) (hC : r ∉ writtenC) :
    W3 m ρ c (Proc.devRef .tc r) = W0 m ρ c (Proc.devRef .tc r) :=
  (keptC _ hC).trans ((keptB _ hB).trans (keptA _ hA))
theorem keep4 {r : Ref sig .tc} (h0 : ∀ w, Pipeline.arrRef spec0 w ≠ r) : W4 m ρ c (Proc.devRef .tc r) = W3 m ρ c (Proc.devRef .tc r) :=
  W4_of_ne m ρ c r h0
theorem keep5 {r : Ref sig .tc} (h0 : ∀ w, Pipeline.arrRef spec0 w ≠ r) (hD : r ∉ writtenD) :
    W5 m ρ c (Proc.devRef .tc r) = W3 m ρ c (Proc.devRef .tc r) :=
  (keptD _ hD).trans (keep4 m ρ c h0)
theorem keep6 {r : Ref sig .tc} (h0 : ∀ w, Pipeline.arrRef spec0 w ≠ r) (hD : r ∉ writtenD)
    (h1 : ∀ w, Pipeline.arrRef spec1 w ≠ r) : W6 m ρ c (Proc.devRef .tc r) = W3 m ρ c (Proc.devRef .tc r) :=
  (W6_of_ne m ρ c r h1).trans (keep5 m ρ c h0 hD)
theorem keep7 {r : Ref sig .tc} (h0 : ∀ w, Pipeline.arrRef spec0 w ≠ r) (hD : r ∉ writtenD)
    (h1 : ∀ w, Pipeline.arrRef spec1 w ≠ r) (h2 : ∀ w, Pipeline.arrRef spec2 w ≠ r) :
    W7 m ρ c (Proc.devRef .tc r) = W3 m ρ c (Proc.devRef .tc r) :=
  (W7_of_ne m ρ c r h2).trans (keep6 m ρ c h0 hD h1)
theorem keep8 {r : Ref sig .tc} (h0 : ∀ w, Pipeline.arrRef spec0 w ≠ r) (hD : r ∉ writtenD)
    (h1 : ∀ w, Pipeline.arrRef spec1 w ≠ r) (h2 : ∀ w, Pipeline.arrRef spec2 w ≠ r) (hE : r ∉ writtenE) :
    W8 m ρ c (Proc.devRef .tc r) = W3 m ρ c (Proc.devRef .tc r) :=
  (keptE _ hE).trans (keep7 m ρ c h0 hD h1 h2)
theorem keep9 {r : Ref sig .tc} (h0 : ∀ w, Pipeline.arrRef spec0 w ≠ r) (hD : r ∉ writtenD)
    (h1 : ∀ w, Pipeline.arrRef spec1 w ≠ r) (h2 : ∀ w, Pipeline.arrRef spec2 w ≠ r) (hE : r ∉ writtenE)
    (h3 : ∀ w, Pipeline.arrRef spec3 w ≠ r) : W9 m ρ c (Proc.devRef .tc r) = W3 m ρ c (Proc.devRef .tc r) :=
  (W9_of_ne m ρ c r h3).trans (keep8 m ρ c h0 hD h1 h2 hE)
theorem keep10 {r : Ref sig .tc} (h0 : ∀ w, Pipeline.arrRef spec0 w ≠ r) (hD : r ∉ writtenD)
    (h1 : ∀ w, Pipeline.arrRef spec1 w ≠ r) (h2 : ∀ w, Pipeline.arrRef spec2 w ≠ r) (hE : r ∉ writtenE)
    (h3 : ∀ w, Pipeline.arrRef spec3 w ≠ r) (hG : r ∉ writtenG) : W10 m ρ c (Proc.devRef .tc r) = W3 m ρ c (Proc.devRef .tc r) :=
  (keptG _ hG).trans (keep9 m ρ c h0 hD h1 h2 hE h3)

/-- An argument no stretch writes is, before the first region, what the launch left. -/
theorem arg3 {r : Ref sig .tc} (hA : r ∉ writtenA) (hB : r ∉ writtenB) (hC : r ∉ writtenC) :
    W3 m ρ c (Proc.devRef .tc r) = m ((c.tc : Thread nD τ).loc r) :=
  keep3 m ρ c hA hB hC

/-! ## Before the first region: the endpoints and the edge norm -/

theorem src3 : W3 m ρ c (Proc.devRef .tc main_v3) = srcOf (F := Ideal) (m ((c.tc : Thread nD τ).loc main_arg1)) :=
  (keptC _ (by decide)).trans ((keptB _ (by decide)).trans (srcA _))
theorem dst3 : W3 m ρ c (Proc.devRef .tc main_v6) = dstOf (F := Ideal) (m ((c.tc : Thread nD τ).loc main_arg1)) :=
  (keptC _ (by decide)).trans ((keptB _ (by decide)).trans (dstA _))
theorem dinv2 : W2 m ρ c (Proc.devRef .tc main_v14) = dinvOf (F := Ideal) (dstOf (F := Ideal) (m ((c.tc : Thread nD τ).loc main_arg1))) := by
  refine (dinvB _).trans ?_
  dsimp only [W1]
  rw [posA, rsqA, zeroA]
  rfl
theorem nrm3 : W3 m ρ c (Proc.devRef .tc main_v29) = edgeNorm (F := Ideal) (m ((c.tc : Thread nD τ).loc main_arg1)) := by
  refine (normC _).trans ?_
  rw [dinv2]
  dsimp only [W2, W1]
  rw [keptB _ (r := main_v3) (by decide), keptB _ (r := main_v6) (by decide), srcA, dstA]
  rfl

/-! ## Layer 1 -/

theorem prod1 : W4 m ρ c (Proc.devRef .tc main_v30) = matProd (m := 50000) (k := 256) (n := 64) (m ((c.tc : Thread nD τ).loc main_arg0)) (m ((c.tc : Thread nD τ).loc main_arg3)) := by
  refine ((W4_arr m ρ c 2).trans (Mat0.result_eq (V3 m ρ) c)).trans ?_
  show matProd (m := 50000) (k := 256) (n := 64) (W3 m ρ c (Proc.devRef .tc main_arg0)) (W3 m ρ c (Proc.devRef .tc main_arg3)) = _
  rw [arg3 m ρ c (r := main_arg0) (by decide) (by decide) (by decide), arg3 m ρ c (r := main_arg3) (by decide) (by decide) (by decide)]

theorem agg1 : W5 m ρ c (Proc.devRef .tc main_v43)
    = aggregate (F := Ideal) (m ((c.tc : Thread nD τ).loc main_arg1)) (matProd (m := 50000) (k := 256) (n := 64) (m ((c.tc : Thread nD τ).loc main_arg0)) (m ((c.tc : Thread nD τ).loc main_arg3))) := by
  refine (aggD _).trans ?_
  rw [prod1, keep4 m ρ c (r := main_v3) (by decide), keep4 m ρ c (r := main_v6) (by decide), keep4 m ρ c (r := main_v29) (by decide),
    src3, dst3, nrm3]
  rfl

theorem row1 : W5 m ρ c (Proc.devRef .tc main_v44) = shapeCast S1x64 ((m ((c.tc : Thread nD τ).loc main_arg4)) : (⟨S64, .f32⟩ : BufTy).Contents (Elt Ideal)) shapeCasts_S64_S1x64 := by
  refine (rowD _).trans ?_
  rw [keep4 m ρ c (r := main_arg4) (by decide), arg3 m ρ c (r := main_arg4) (by decide) (by decide) (by decide)]

theorem out1 : W6 m ρ c (Proc.devRef .tc main_v45) = layer (m ((c.tc : Thread nD τ).loc main_arg1)) (m ((c.tc : Thread nD τ).loc main_arg0)) (m ((c.tc : Thread nD τ).loc main_arg3)) (m ((c.tc : Thread nD τ).loc main_arg4)) := by
  refine ((W6_arr m ρ c 2).trans (Bias1.result_eq (V5 m ρ) c)).trans ?_
  show rectifiedRow (m := 50000) (k := 64) (W5 m ρ c (Proc.devRef .tc main_v43)) (W5 m ρ c (Proc.devRef .tc main_v44)) = _
  rw [agg1, row1, rectifiedRow_cast]
  rfl

/-! ## Layer 2 -/

theorem prod2 : W7 m ρ c (Proc.devRef .tc main_v46)
    = matProd (m := 50000) (k := 64) (n := 64) (layer (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg5)) := by
  refine ((W7_arr m ρ c 2).trans (Mat2.result_eq (V6 m ρ) c)).trans ?_
  show matProd (m := 50000) (k := 64) (n := 64) (W6 m ρ c (Proc.devRef .tc main_v45)) (W6 m ρ c (Proc.devRef .tc main_arg5)) = _
  rw [out1, keep6 m ρ c (r := main_arg5) (by decide) (by decide) (by decide), arg3 m ρ c (r := main_arg5) (by decide) (by decide) (by decide)]

theorem agg2 : W8 m ρ c (Proc.devRef .tc main_v59)
    = aggregate (F := Ideal) (m ((c.tc : Thread nD τ).loc main_arg1)) (matProd (m := 50000) (k := 64) (n := 64) (layer (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg5))) := by
  refine (aggE _).trans ?_
  rw [prod2, keep7 m ρ c (r := main_v3) (by decide) (by decide) (by decide) (by decide),
    keep7 m ρ c (r := main_v6) (by decide) (by decide) (by decide) (by decide),
    keep7 m ρ c (r := main_v29) (by decide) (by decide) (by decide) (by decide), src3, dst3, nrm3]
  rfl

theorem row2 : W8 m ρ c (Proc.devRef .tc main_v60) = shapeCast S1x64 ((m ((c.tc : Thread nD τ).loc main_arg6)) : (⟨S64, .f32⟩ : BufTy).Contents (Elt Ideal)) shapeCasts_S64_S1x64 := by
  refine (rowE _).trans ?_
  rw [keep7 m ρ c (r := main_arg6) (by decide) (by decide) (by decide) (by decide), arg3 m ρ c (r := main_arg6) (by decide) (by decide) (by decide)]

theorem out2 : W9 m ρ c (Proc.devRef .tc main_v61)
    = layer (m ((c.tc : Thread nD τ).loc main_arg1)) (layer (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6)) := by
  refine ((W9_arr m ρ c 2).trans (Bias3.result_eq (V8 m ρ) c)).trans ?_
  show rectifiedRow (m := 50000) (k := 64) (W8 m ρ c (Proc.devRef .tc main_v59)) (W8 m ρ c (Proc.devRef .tc main_v60)) = _
  rw [agg2, row2, rectifiedRow_cast]
  rfl

/-! ## The pooling and the head -/

theorem pool : W10 m ρ c (Proc.devRef .tc main_v73)
    = meanPool (F := Ideal) (m ((c.tc : Thread nD τ).loc main_arg2)) (layer (m ((c.tc : Thread nD τ).loc main_arg1)) (layer (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))) := by
  refine (poolG _).trans ?_
  rw [out2, keep9 m ρ c (r := main_arg2) (by decide) (by decide) (by decide) (by decide) (by decide) (by decide),
    arg3 m ρ c (r := main_arg2) (by decide) (by decide) (by decide)]

theorem hrow1 : W10 m ρ c (Proc.devRef .tc main_v74) = shapeCast S1x128 ((m ((c.tc : Thread nD τ).loc main_arg8)) : (⟨S128, .f32⟩ : BufTy).Contents (Elt Ideal)) shapeCasts_S128_S1x128 := by
  refine (row1G _).trans ?_
  rw [keep9 m ρ c (r := main_arg8) (by decide) (by decide) (by decide) (by decide) (by decide) (by decide),
    arg3 m ρ c (r := main_arg8) (by decide) (by decide) (by decide)]

theorem hrow2 : W10 m ρ c (Proc.devRef .tc main_v75) = shapeCast S1x4 ((m ((c.tc : Thread nD τ).loc main_arg10)) : (⟨S4, .f32⟩ : BufTy).Contents (Elt Ideal)) shapeCasts_S4_S1x4 := by
  refine (row2G _).trans ?_
  rw [keep9 m ρ c (r := main_arg10) (by decide) (by decide) (by decide) (by decide) (by decide) (by decide),
    arg3 m ρ c (r := main_arg10) (by decide) (by decide) (by decide)]

/-- The head with its biases cast to one row is the head. -/
theorem headRows_cast (p : (⟨2, ![64, 64]⟩ : Shape).Idx → EReal) (w1 : (⟨2, ![64, 128]⟩ : Shape).Idx → EReal)
    (c1 : (⟨1, ![128]⟩ : Shape).Idx → EReal) (w2 : (⟨2, ![128, 4]⟩ : Shape).Idx → EReal) (c2 : (⟨1, ![4]⟩ : Shape).Idx → EReal)
    (h1 : (⟨1, ![128]⟩ : Shape).ShapeCasts ⟨2, ![1, 128]⟩) (h2 : (⟨1, ![4]⟩ : Shape).ShapeCasts ⟨2, ![1, 4]⟩) :
    headRows p w1 (shapeCast ⟨2, ![1, 128]⟩ c1 h1) w2 (shapeCast ⟨2, ![1, 4]⟩ c2 h2) = headOut p w1 c1 w2 c2 := by
  funext i
  obtain ⟨a, b, rfl⟩ : ∃ (a : Fin 64) (b : Fin 4), i = ix2 a b := ⟨i 0, i 1, eq_ix2 i⟩
  show matProd (rectifiedRow (matProd p w1) (shapeCast ⟨2, ![1, 128]⟩ c1 h1)) w2 (ix2 a b) + shapeCast ⟨2, ![1, 4]⟩ c2 h2 (ix2 (0 : Fin 1) b)
    = matProd (rectified (matProd p w1) c1) w2 (ix2 a b) + c2 (ix1 b)
  rw [rectifiedRow_cast, Cert.BiasRow.oneRow_cast_apply]

/-- What the run leaves in the result array is the network of the launch contents of the eleven arguments. -/
theorem result_eq : W11 m ρ c (Proc.devRef .tc main_v76)
    = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine ((W11_arr m ρ c 5).trans (Head4.result_eq (V10 m ρ) c)).trans ?_
  show headRows (W10 m ρ c (Proc.devRef .tc main_v73)) (W10 m ρ c (Proc.devRef .tc main_arg7)) (W10 m ρ c (Proc.devRef .tc main_v74))
      (W10 m ρ c (Proc.devRef .tc main_arg9)) (W10 m ρ c (Proc.devRef .tc main_v75)) = _
  rw [pool, hrow1, hrow2,
    keep10 m ρ c (r := main_arg7) (by decide) (by decide) (by decide) (by decide) (by decide) (by decide) (by decide),
    keep10 m ρ c (r := main_arg9) (by decide) (by decide) (by decide) (by decide) (by decide) (by decide) (by decide),
    arg3 m ρ c (r := main_arg7) (by decide) (by decide) (by decide), arg3 m ρ c (r := main_arg9) (by decide) (by decide) (by decide),
    headRows_cast]
  rfl

end Cert.KernelIdeal.Net

end
-- ==== Proof.RefValue.lean ====
/- The reference program's result is the network: its run's term, read one stage at a time.

   The reference computes the degree, dinv and the edge norm twice (once per layer) with the same operations on the same
   endpoint table, so both copies are the one named function.  Its matrix products are the host's dot_general, which
   on the extended reals is the textbook product; its rectified sums are  max(a + (b laid along the rows), 0)  with the
   zero a broadcast scalar, which is max(a + b's row, 0) entry by entry; the last bias is added the same way. -/
import proofs.«181904_j19602230739293_1_alg».proof.Proof.RefRead
import proofs.«181904_j19602230739293_1_alg».proof.Proof.Stages
import proofs.«181904_j19602230739293_1_alg».proof.Proof.LibBiasRow

noncomputable section

open scoped BigOperators

namespace Cert.ReferenceIdeal.Net

open Idealize.ShloMosaic Idealize.ShloMosaic.ValueIdx Idealize.ShloMosaic.TcCoe Idealize.SL.Sem
open Cert.ReferenceIdeal Cert.ReferenceIdeal.Gen Cert.ReferenceIdeal.ReadP Cert.Gcn Cert.MatProd Cert.DenseRelu

variable (x0 : (⟨S50000x256, .f32⟩ : BufTy).Contents (Elt Ideal)) (x1 : (⟨S2x800000, .i32⟩ : BufTy).Contents (Elt Ideal)) (x2 : (⟨S50000, .i32⟩ : BufTy).Contents (Elt Ideal))
  (x3 : (⟨S256x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
  (x7 : (⟨S64x128, .f32⟩ : BufTy).Contents (Elt Ideal)) (x8 : (⟨S128, .f32⟩ : BufTy).Contents (Elt Ideal)) (x9 : (⟨S128x4, .f32⟩ : BufTy).Contents (Elt Ideal)) (x10 : (⟨S4, .f32⟩ : BufTy).Contents (Elt Ideal))

/-- The first projection X W1. -/
theorem proj1 : val_main_v7 (F := Ideal) x0 x3 = matProd x0 x3 := by
  unfold val_main_v7
  exact hostDot_eq dot_S50000x256_S256x64_S50000x64_1_0_0_1_n_n.wf none x0 x3

/-- The first aggregation is agg of the first projection (the same host operations, named). -/
theorem agg1 : val_main_v43 (F := Ideal) x0 x1 x3 = aggregate (F := Ideal) x1 (val_main_v7 (F := Ideal) x0 x3) := rfl

/-- The first layer. -/
theorem layer1 : val_main_v47 (F := Ideal) x0 x1 x3 x4 = layer x1 x0 x3 x4 := by
  have h : val_main_v47 (F := Ideal) x0 x1 x3 x4 = rectified (val_main_v43 (F := Ideal) x0 x1 x3) x4 :=
    host_rectified (m := 50000) (k := 64) bcast_S64_S1x64_1 bcast_S1x64_S50000x64_0_1 bcast_S_S50000x64 (val_main_v43 (F := Ideal) x0 x1 x3) x4
  rw [h, agg1, proj1]
  rfl

/-- The second projection. -/
theorem proj2 : val_main_v48 (F := Ideal) x0 x1 x3 x4 x5 = matProd (layer x1 x0 x3 x4) x5 := by
  unfold val_main_v48
  rw [layer1]
  exact hostDot_eq dot_S50000x64_S64x64_S50000x64_1_0_0_1_n_n.wf none _ x5

/-- The second aggregation (the degree, dinv and norm computed again: the same named function). -/
theorem agg2 : val_main_v84 (F := Ideal) x0 x1 x3 x4 x5 = aggregate (F := Ideal) x1 (val_main_v48 (F := Ideal) x0 x1 x3 x4 x5) := rfl

/-- The second layer. -/
theorem layer2 : val_main_v88 (F := Ideal) x0 x1 x3 x4 x5 x6 = layer x1 (layer x1 x0 x3 x4) x5 x6 := by
  have h : val_main_v88 (F := Ideal) x0 x1 x3 x4 x5 x6 = rectified (val_main_v84 (F := Ideal) x0 x1 x3 x4 x5) x6 :=
    host_rectified (m := 50000) (k := 64) bcast_S64_S1x64_1 bcast_S1x64_S50000x64_0_1 bcast_S_S50000x64 (val_main_v84 (F := Ideal) x0 x1 x3 x4 x5) x6
  rw [h, agg2, proj2]
  rfl

/-- The pooled matrix. -/
theorem pooled : val_main_v100 (F := Ideal) x0 x1 x2 x3 x4 x5 x6 = meanPool (F := Ideal) x2 (val_main_v88 (F := Ideal) x0 x1 x3 x4 x5 x6) := rfl

/-- The head's hidden layer. -/
theorem hidden : val_main_v105 (F := Ideal) x0 x1 x2 x3 x4 x5 x6 x7 x8
    = rectified (matProd (val_main_v100 (F := Ideal) x0 x1 x2 x3 x4 x5 x6) x7) x8 := by
  have h : val_main_v105 (F := Ideal) x0 x1 x2 x3 x4 x5 x6 x7 x8 = rectified (val_main_v101 (F := Ideal) x0 x1 x2 x3 x4 x5 x6 x7) x8 :=
    host_rectified (m := 64) (k := 128) bcast_S128_S1x128_1 bcast_S1x128_S64x128_0_1 bcast_S_S64x128 (val_main_v101 (F := Ideal) x0 x1 x2 x3 x4 x5 x6 x7) x8
  rw [h]
  unfold val_main_v101
  rw [show Host.dotGeneral (F := Ideal) dot_S64x64_S64x128_S64x128_1_0_0_1_n_n none (val_main_v100 (F := Ideal) x0 x1 x2 x3 x4 x5 x6) x7
      = matProd (val_main_v100 (F := Ideal) x0 x1 x2 x3 x4 x5 x6) x7 from hostDot_eq dot_S64x64_S64x128_S64x128_1_0_0_1_n_n.wf none _ x7]

/-- The result is the head of the pooled matrix. -/
theorem out : val_main_v109 (F := Ideal) x0 x1 x2 x3 x4 x5 x6 x7 x8 x9 x10
    = headOut (val_main_v100 (F := Ideal) x0 x1 x2 x3 x4 x5 x6) x7 x8 x9 x10 := by
  funext i
  obtain ⟨p, q, rfl⟩ : ∃ (p : Fin 64) (q : Fin 4), i = ix2 p q := ⟨i 0, i 1, eq_ix2 i⟩
  show val_main_v106 (F := Ideal) x0 x1 x2 x3 x4 x5 x6 x7 x8 x9 (ix2 p q)
      + broadcastInDim S64x4 ![0, 1] bcast_S1x4_S64x4_0_1 (broadcastInDim S1x4 ![1] bcast_S4_S1x4_1 x10) (ix2 p q)
    = matProd (rectified (matProd (val_main_v100 (F := Ideal) x0 x1 x2 x3 x4 x5 x6) x7) x8) x9 (ix2 p q) + x10 (ix1 q)
  rw [Cert.BiasRow.inDimRows_apply (m := 64) (n := 4) x10 bcast_S4_S1x4_1 bcast_S1x4_S64x4_0_1 p q]
  refine congrArg (· + x10 (ix1 q)) ?_
  unfold val_main_v106
  rw [hidden]
  exact congrFun (hostDot_eq dot_S64x128_S128x4_S64x4_1_0_0_1_n_n.wf none _ x9) (ix2 p q)

/-- The reference's last stage is the network of the eleven arguments. -/
theorem stage_eq : val_main_v109 (F := Ideal) x0 x1 x2 x3 x4 x5 x6 x7 x8 x9 x10 = network x0 x1 x2 x3 x4 x5 x6 x7 x8 x9 x10 := by
  rw [out, pooled, layer2]
  rfl

/-- The reference run's result term is the network of the launch contents of the eleven arguments. -/
theorem result_eq (m : (ℓ : Loc nD τ sig) → Buf (Elt Ideal) ℓ) (c : Dev nD) :
    Cert.ReferenceIdeal.ValueP.res_main_v109 (F := Ideal) m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) :=
  (val_main_v109_eq (F := Ideal) m c).trans (stage_eq _ _ _ _ _ _ _ _ _ _ _)

end Cert.ReferenceIdeal.Net

end
-- ==== Proof.lean ====
/- A two-layer graph convolution with mean pooling and a two-layer head, computed two ways, and the proof that the
   two ways agree on the extended reals.

   Both programs build the same 850000 edges (the 800000 given ones and a loop per node), the degree of each node,
   dinv = deg^(-1/2) (zero where the degree is zero), the edge norm dinv(source) * dinv(target), and for each layer
   agg(X W) followed by max(. + b, 0); then the per-graph mean of the node rows, and max(p F1 + c1, 0) F2 + c2.
   One program does the four matrix products, the two bias-and-max steps and the head in kernels (the products on the
   matrix unit after narrowing both operands, the node rows worked in five blocks of 10000), the other does everything
   with whole-array host operations.  On the extended reals narrowing rounds nothing, a product into a zero accumulator
   is the textbook product, a block of rows of a product is the product of the block of rows, and a bias vector cast
   to one row and repeated down the rows is the same addend as the vector laid along the rows; the edge bookkeeping
   and the pooling are the same host operations in both programs and are never opened.  So both results are one
   function, `network`, of the eleven arguments, and no finiteness of the inputs is used.

   Each program terminates with its arguments unchanged: the two kernel programs by their frames, the host program by
   its run read back. -/
import proofs.«181904_j19602230739293_1_alg».proof.Defs
import proofs.«181904_j19602230739293_1_alg».proof.Proof.Gen.Kernel
import proofs.«181904_j19602230739293_1_alg».proof.Proof.Gen.Kernel.Skeleton
import proofs.«181904_j19602230739293_1_alg».proof.Proof.Gen.Kernel.Launch
import proofs.«181904_j19602230739293_1_alg».proof.Proof.Gen.Kernel.Points
import proofs.«181904_j19602230739293_1_alg».proof.Proof.Gen.Kernel.Frame
import proofs.«181904_j19602230739293_1_alg».proof.Proof.Gen.KernelIdeal
import proofs.«181904_j19602230739293_1_alg».proof.Proof.Gen.KernelIdeal.Skeleton
import proofs.«181904_j19602230739293_1_alg».proof.Proof.Gen.KernelIdeal.Launch
import proofs.«181904_j19602230739293_1_alg».proof.Proof.Gen.KernelIdeal.Points
import proofs.«181904_j19602230739293_1_alg».proof.Proof.Gen.KernelIdeal.Frame
import proofs.«181904_j19602230739293_1_alg».proof.Proof.Gen.ReferenceIdeal
import proofs.«181904_j19602230739293_1_alg».proof.Proof.Gen.Pre_finite_inputs
import proofs.«181904_j19602230739293_1_alg».proof.Proof.ValueRun
import proofs.«181904_j19602230739293_1_alg».proof.Proof.KernelValue
import proofs.«181904_j19602230739293_1_alg».proof.Proof.RefRun
import proofs.«181904_j19602230739293_1_alg».proof.Proof.RefValue
import Idealize.ShloMosaic.Adequacy
import Idealize.ShloMosaic.Init

noncomputable section

namespace Cert.Proof

open Idealize.ShloMosaic Idealize.SL.Sem

/-- The word-level kernel program terminates, nothing faulting, its arguments unchanged. -/
theorem frame_bits : Cert.frame_Kernel := fun m ρ _ => Cert.Kernel.Gen.frame m ρ

/-- So does the same program read on the extended reals. -/
theorem frame_ideal : Cert.frame_KernelIdeal := fun m ρ _ => Cert.KernelIdeal.Gen.frame m ρ

/-- So does the host program: its run read back, the result dropped. -/
theorem frame_host : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the eleven arguments both programs end with the network of those arguments in their
    result arrays. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Net.result_eq m ρ c), (h c).2⟩)
      (Cert.KernelIdeal.GenNamed.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Net.result_eq m' c]
    obtain ⟨h0, h1, h2, h3, h4, h5, h6, h7, h8, h9, h10⟩ := hagree c
    rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_bits, frame_ideal, frame_host, preserves, algebraic⟩

end Cert.Proof

end
